-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x256x4 : Shape := ⟨4, ![16, 256, 256, 4]⟩
abbrev S12x64 : Shape := ⟨2, ![12, 64]⟩
abbrev S64 : Shape := ⟨1, ![64]⟩
abbrev S64x8 : Shape := ⟨2, ![64, 8]⟩
abbrev S8 : Shape := ⟨1, ![8]⟩
abbrev S_ : Shape := ⟨0, ![]⟩

class Facts : Prop where
  bcast_S_S16x256x256x4 : S_.BroadcastsInDim S16x256x256x4 (![] : Fin 0 → Fin S16x256x256x4.rank)
  reducesTo_S16x256x256x4_S_d0_1_2_3 : S16x256x256x4.ReducesTo [0, 1, 2, 3] S_
  h_S_ : 0 < S_.numel
  bcast_S_S12x64 : S_.BroadcastsInDim S12x64 (![] : Fin 0 → Fin S12x64.rank)
  reducesTo_S12x64_S_d0_1 : S12x64.ReducesTo [0, 1] S_
  bcast_S_S64 : S_.BroadcastsInDim S64 (![] : Fin 0 → Fin S64.rank)
  reducesTo_S64_S_d0 : S64.ReducesTo [0] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S8 .f32) (main_v13 : IVec S_ 1) (main_v16 : IVec S64x8 1) : IVec S_ 1 :=
  let main_c_5 : IVec S_ 1 := constantI S_ 1 1#1
  let main_v17 : IVec S_ 1 := (fun x v => Host.reduce IntOp.andi x v reducesTo_S64x8_S_d0_1 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S16x256x256x4 .f32) (main_arg1 : FVec F S12x64 .f32) (main_arg2 : FVec F S64 .f32) (main_arg3 : FVec F S64x8 .f32) (main_arg4 : FVec F S8 .f32) : IVec S_ 1 :=
  let main_v0 : FVec F S16x256x256x4 .f32 := Host.absf main_arg0
  let main_cst : FVec F S_ .f32 := constant S_ .f32 0x7F800000#32
  let main_v1 : FVec F S16x256x256x4 .f32 := broadcastInDim S16x256x256x4 ![] bcast_S_S16x256x256x4 main_cst
  let main_v2 : IVec S16x256x256x4 1 := cmpf .olt main_v0 main_v1
  let main_c : IVec S_ 1 := constantI S_ 1 1#1
  let main_v3 : IVec S_ 1 := (fun x v => Host.reduce IntOp.andi x v reducesTo_S16x256x256x4_S_d0_1_2_3 h_S_) main_v2 main_c
  let main_v4 : FVec F S12x64 .f32 := Host.absf main_arg1
  let main_cst_0 : FVec F S_ .f32 := constant S_ .f32 0x7F800000#32
  let main_v5 : FVec F S12x64 .f32 := broadcastInDim S12x64 ![] bcast_S_S12x64 main_cst_0
  let main_v6 : IVec S12x64 1 := cmpf .olt main_v4 main_v5
  let main_c_1 : IVec S_ 1 := constantI S_ 1 1#1
  let main_v7 : IVec S_ 1 := (fun x v => Host.reduce IntOp.andi x v reducesTo_S12x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x8 .f32 := Host.absf main_arg3
  let main_cst_4 : FVec F S_ .f32 := constant S_ .f32 0x7F800000#32
  let main_v15 : FVec F S64x8 .f32 := broadcastInDim S64x8 ![] bcast_S_S64x8 main_cst_4
  let main_v16 : IVec S64x8 1 := cmpf .olt main_v14 main_v15
  fn_part1 (F := F) main_arg4 main_v13 main_v16
-- ==== Kernel.lean ====
abbrev S16x256x256x4 : Shape := ⟨4, ![16, 256, 256, 4]⟩
abbrev S12x64 : Shape := ⟨2, ![12, 64]⟩
abbrev S64 : Shape := ⟨1, ![64]⟩
abbrev S64x8 : Shape := ⟨2, ![64, 8]⟩
abbrev S8 : Shape := ⟨1, ![8]⟩
abbrev S16x4x256x256 : Shape := ⟨4, ![16, 4, 256, 256]⟩
abbrev S16x4x65536 : Shape := ⟨3, ![16, 4, 65536]⟩
abbrev S64x12 : Shape := ⟨2, ![64, 12]⟩
abbrev S8x64 : Shape := ⟨2, ![8, 64]⟩
abbrev S64x1 : Shape := ⟨2, ![64, 1]⟩
abbrev S8x1 : Shape := ⟨2, ![8, 1]⟩
abbrev S16x8x65536 : Shape := ⟨3, ![16, 8, 65536]⟩
abbrev S1x4x16384 : Shape := ⟨3, ![1, 4, 16384]⟩
abbrev S1x8x16384 : Shape := ⟨3, ![1, 8, 16384]⟩
abbrev S4x16384 : Shape := ⟨2, ![4, 16384]⟩
abbrev S1x16384 : Shape := ⟨2, ![1, 16384]⟩
abbrev S12x16384 : Shape := ⟨2, ![12, 16384]⟩
abbrev S64x16384 : Shape := ⟨2, ![64, 16384]⟩
abbrev S8x16384 : Shape := ⟨2, ![8, 16384]⟩
abbrev S16x8x256x256 : Shape := ⟨4, ![16, 8, 256, 256]⟩

abbrev nBuf : Space → Nat
  | .hbm => 13
  | .vmem => 8
  | .smem => 0
  | _ => 0

abbrev bufTy : (tb : Table) → Fin (tcTables nBuf tb) → BufTy
  | .hbm, ⟨0, _⟩ => ⟨S16x256x256x4, .f32⟩
  | .hbm, ⟨1, _⟩ => ⟨S12x64, .f32⟩
  | .hbm, ⟨2, _⟩ => ⟨S64, .f32⟩
  | .hbm, ⟨3, _⟩ => ⟨S64x8, .f32⟩
  | .hbm, ⟨4, _⟩ => ⟨S8, .f32⟩
  | .hbm, ⟨5, _⟩ => ⟨S16x4x256x256, .f32⟩
  | .hbm, ⟨6, _⟩ => ⟨S16x4x65536, .f32⟩
  | .hbm, ⟨7, _⟩ => ⟨S64x12, .f32⟩
  | .hbm, ⟨8, _⟩ => ⟨S8x64, .f32⟩
  | .hbm, ⟨9, _⟩ => ⟨S64x1, .f32⟩
  | .hbm, ⟨10, _⟩ => ⟨S8x1, .f32⟩
  | .hbm, ⟨11, _⟩ => ⟨S16x8x65536, .f32⟩
  | .hbm, ⟨12, _⟩ => ⟨S16x8x256x256, .f32⟩
  | .local _ .vmem, ⟨0, _⟩ => ⟨S1x4x16384, .f32⟩
  | .local _ .vmem, ⟨1, _⟩ => ⟨S1x4x16384, .f32⟩
  | .local _ .vmem, ⟨2, _⟩ => ⟨S64x12, .f32⟩
  | .local _ .vmem, ⟨3, _⟩ => ⟨S64x1, .f32⟩
  | .local _ .vmem, ⟨4, _⟩ => ⟨S8x64, .f32⟩
  | .local _ .vmem, ⟨5, _⟩ => ⟨S8x1, .f32⟩
  | .local _ .vmem, ⟨6, _⟩ => ⟨S1x8x16384, .f32⟩
  | .local _ .vmem, ⟨7, _⟩ => ⟨S1x8x16384, .f32⟩
  | _, _ => ⟨S16x256x256x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x8x16384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  transposes_S16x256x256x4_S16x4x256x256_0_3_1_2 : S16x256x256x4.Transposes [0, 3, 1, 2] S16x4x256x256
  shapeCasts_S16x4x256x256_S16x4x65536 : S16x4x256x256.ShapeCasts S16x4x65536
  transposes_S12x64_S64x12_1_0 : S12x64.Transposes [1, 0] S64x12
  transposes_S64x8_S8x64_1_0 : S64x8.Transposes [1, 0] S8x64
  shapeCasts_S64_S64x1 : S64.ShapeCasts S64x1
  shapeCasts_S8_S8x1 : S8.ShapeCasts S8x1
  inb_S1x4x16384_S1x4x16384_0_0_0 : ∀ a, (![0, 0, 0] : Fin 3 → Nat) a + S1x4x16384.size a ≤ S1x4x16384.size a
  h_S1x4x16384 : 0 < S1x4x16384.numel
  shapeCasts_S1x4x16384_S4x16384 : S1x4x16384.ShapeCasts S4x16384
  slices_S4x16384_o0_0_S1x16384 : S4x16384.Slices ![0, 0] S1x16384
  slices_S4x16384_o1_0_S1x16384 : S4x16384.Slices ![1, 0] S1x16384
  slices_S4x16384_o2_0_S1x16384 : S4x16384.Slices ![2, 0] S1x16384
  slices_S4x16384_o3_0_S1x16384 : S4x16384.Slices ![3, 0] S1x16384
  concatenates_S1x16384_S1x16384_S1x16384_S1x16384_S1x16384_S1x16384_S1x16384_S1x16384_S1x16384_S1x16384_S1x16384_S1x16384_S12x16384_d0 : Shape.Concatenates [S1x16384, S1x16384, S1x16384, S1x16384, S1x16384, S1x16384, S1x16384, S1x16384, S1x16384, S1x16384, S1x16384, S1x16384] S12x16384 0
  bitsLt_bf16_f32 : FTy.bits .bf16 < FTy.bits .f32
  inb_S64x12_S64x12_0_0 : ∀ a, (![0, 0] : Fin 2 → Nat) a + S64x12.size a ≤ S64x12.size a
  h_S64x12 : 0 < S64x12.numel
  shapeCasts_S64x12_S64x12 : S64x12.ShapeCasts S64x12
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x16384 : S64x1.Broadcasts S64x16384
  inb_S8x64_S8x64_0_0 : ∀ a, (![0, 0] : Fin 2 → Nat) a + S8x64.size a ≤ S8x64.size a
  h_S8x64 : 0 < S8x64.numel
  shapeCasts_S8x64_S8x64 : S8x64.ShapeCasts S8x64
  inb_S8x1_S8x1_0_0 : ∀ a, (![0, 0] : Fin 2 → Nat) a + S8x1.size a ≤ S8x1.size a
  h_S8x1 : 0 < S8x1.numel
  shapeCasts_S8x1_S8x1 : S8x1.ShapeCasts S8x1
  broadcasts_S8x1_S8x16384 : S8x1.Broadcasts S8x16384
  inb_S1x8x16384_S1x8x16384_0_0_0 : ∀ a, (![0, 0, 0] : Fin 3 → Nat) a + S1x8x16384.size a ≤ S1x8x16384.size a
  h_S1x8x16384 : 0 < S1x8x16384.numel
  shapeCasts_S1x8x16384_S8x16384 : S1x8x16384.ShapeCasts S8x16384
  shapeCasts_S8x16384_S1x8x16384 : S8x16384.ShapeCasts S1x8x16384
  shapeCasts_S16x8x65536_S16x8x256x256 : S16x8x65536.ShapeCasts S16x8x256x256
  dot_S64x12_S12x16384_S64x16384_1_0_0_1_n_n_wf : DotDims.WF S64x12 S12x16384 S64x16384 [1] [0] [0] [1] [] []
  dot_S8x64_S64x16384_S8x16384_1_0_0_1_n_n_wf : DotDims.WF S8x64 S64x16384 S8x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x16384.size a ≤ S16x4x65536.size a
  hwx0_0 : ∀ i : grid0.Coords, EltTy.bits .f32 = 32 ∨ (Rect.block (s := S16x4x65536) S1x4x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x12.size a ≤ S64x12.size a
  hwx0_1 : ∀ i : grid0.Coords, EltTy.bits .f32 = 32 ∨ (Rect.block (s := S64x12) S64x12.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x64.size a ≤ S8x64.size a
  hwx0_3 : ∀ i : grid0.Coords, EltTy.bits .f32 = 32 ∨ (Rect.block (s := S8x64) S8x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x1.size a ≤ S8x1.size a
  hwx0_4 : ∀ i : grid0.Coords, EltTy.bits .f32 = 32 ∨ (Rect.block (s := S8x1) S8x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x16384.size a ≤ S16x8x65536.size a
  hwx0_5 : ∀ i : grid0.Coords, EltTy.bits .f32 = 32 ∨ (Rect.block (s := S16x8x65536) S1x8x16384.size (cc0_transform_5 i) (hinb0_5 i)).WholeWords (EltTy.packing .f32)

variable [Facts₀]

def dot_S64x12_S12x16384_S64x16384_1_0_0_1_n_n : DotDims S64x12 S12x16384 S64x16384 where
  lhsContracting := [1]
  rhsContracting := [0]
  lhsNonContracting := [0]
  rhsNonContracting := [1]
  lhsBatch := []
  rhsBatch := []
  wf := dot_S64x12_S12x16384_S64x16384_1_0_0_1_n_n_wf
def dot_S8x64_S64x16384_S8x16384_1_0_0_1_n_n : DotDims S8x64 S64x16384 S8x16384 where
  lhsContracting := [1]
  rhsContracting := [0]
  lhsNonContracting := [0]
  rhsNonContracting := [1]
  lhsBatch := []
  rhsBatch := []
  wf := dot_S8x64_S64x16384_S8x16384_1_0_0_1_n_n_wf

abbrev win0_0 : Pipeline.Window sig grid0 :=
  Pipeline.Window.ofSpec (Memref.whole main_v1) S1x4x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S64x12.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S8x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x8x16384.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x256x256x4 : Shape := ⟨4, ![16, 256, 256, 4]⟩
abbrev S12x64 : Shape := ⟨2, ![12, 64]⟩
abbrev S64 : Shape := ⟨1, ![64]⟩
abbrev S64x8 : Shape := ⟨2, ![64, 8]⟩
abbrev S8 : Shape := ⟨1, ![8]⟩
abbrev S16x256x256x1 : Shape := ⟨4, ![16, 256, 256, 1]⟩
abbrev S16x256x256 : Shape := ⟨3, ![16, 256, 256]⟩
abbrev S_ : Shape := ⟨0, ![]⟩
abbrev S16x256x256x12 : Shape := ⟨4, ![16, 256, 256, 12]⟩
abbrev S16x256x256x64 : Shape := ⟨4, ![16, 256, 256, 64]⟩
abbrev S1x1x1x64 : Shape := ⟨4, ![1, 1, 1, 64]⟩
abbrev S16x256x256x8 : Shape := ⟨4, ![16, 256, 256, 8]⟩
abbrev S1x1x1x8 : Shape := ⟨4, ![1, 1, 1, 8]⟩
abbrev S16x8x256x256 : Shape := ⟨4, ![16, 8, 256, 256]⟩

abbrev nBuf : Space → Nat
  | .hbm => 85
  | .vmem => 0
  | .smem => 0
  | _ => 0

abbrev bufTy : (tb : Table) → Fin (tcTables nBuf tb) → BufTy
  | .hbm, ⟨0, _⟩ => ⟨S16x256x256x4, .f32⟩
  | .hbm, ⟨1, _⟩ => ⟨S12x64, .f32⟩
  | .hbm, ⟨2, _⟩ => ⟨S64, .f32⟩
  | .hbm, ⟨3, _⟩ => ⟨S64x8, .f32⟩
  | .hbm, ⟨4, _⟩ => ⟨S8, .f32⟩
  | .hbm, ⟨5, _⟩ => ⟨S16x256x256x1, .f32⟩
  | .hbm, ⟨6, _⟩ => ⟨S16x256x256, .f32⟩
  | .hbm, ⟨7, _⟩ => ⟨S16x256x256x1, .f32⟩
  | .hbm, ⟨8, _⟩ => ⟨S16x256x256, .f32⟩
  | .hbm, ⟨9, _⟩ => ⟨S16x256x256x1, .f32⟩
  | .hbm, ⟨10, _⟩ => ⟨S16x256x256, .f32⟩
  | .hbm, ⟨11, _⟩ => ⟨S16x256x256x1, .f32⟩
  | .hbm, ⟨12, _⟩ => ⟨S16x256x256, .f32⟩
  | .hbm, ⟨13, _⟩ => ⟨S16x256x256, .f32⟩
  | .hbm, ⟨14, _⟩ => ⟨S16x256x256, .f32⟩
  | .hbm, ⟨15, _⟩ => ⟨S16x256x256, .f32⟩
  | .hbm, ⟨16, _⟩ => ⟨S_, .f32⟩
  | .hbm, ⟨17, _⟩ => ⟨S16x256x256, .f32⟩
  | .hbm, ⟨18, _⟩ => ⟨S16x256x256, .f32⟩
  | .hbm, ⟨19, _⟩ => ⟨S16x256x256, .f32⟩
  | .hbm, ⟨20, _⟩ => ⟨S_, .f32⟩
  | .hbm, ⟨21, _⟩ => ⟨S16x256x256, .f32⟩
  | .hbm, ⟨22, _⟩ => ⟨S16x256x256, .f32⟩
  | .hbm, ⟨23, _⟩ => ⟨S_, .f32⟩
  | .hbm, ⟨24, _⟩ => ⟨S16x256x256, .f32⟩
  | .hbm, ⟨25, _⟩ => ⟨S16x256x256, .f32⟩
  | .hbm, ⟨26, _⟩ => ⟨S_, .f32⟩
  | .hbm, ⟨27, _⟩ => ⟨S16x256x256, .f32⟩
  | .hbm, ⟨28, _⟩ => ⟨S16x256x256, .f32⟩
  | .hbm, ⟨29, _⟩ => ⟨S16x256x256, .f32⟩
  | .hbm, ⟨30, _⟩ => ⟨S_, .f32⟩
  | .hbm, ⟨31, _⟩ => ⟨S16x256x256, .f32⟩
  | .hbm, ⟨32, _⟩ => ⟨S16x256x256, .f32⟩
  | .hbm, ⟨33, _⟩ => ⟨S16x256x256, .f32⟩
  | .hbm, ⟨34, _⟩ => ⟨S16x256x256, .f32⟩
  | .hbm, ⟨35, _⟩ => ⟨S16x256x256, .f32⟩
  | .hbm, ⟨36, _⟩ => ⟨S16x256x256, .f32⟩
  | .hbm, ⟨37, _⟩ => ⟨S_, .f32⟩
  | .hbm, ⟨38, _⟩ => ⟨S16x256x256, .f32⟩
  | .hbm, ⟨39, _⟩ => ⟨S16x256x256, .f32⟩
  | .hbm, ⟨40, _⟩ => ⟨S16x256x256, .f32⟩
  | .hbm, ⟨41, _⟩ => ⟨S16x256x256, .f32⟩
  | .hbm, ⟨42, _⟩ => ⟨S16x256x256, .f32⟩
  | .hbm, ⟨43, _⟩ => ⟨S16x256x256, .f32⟩
  | .hbm, ⟨44, _⟩ => ⟨S_, .f32⟩
  | .hbm, ⟨45, _⟩ => ⟨S16x256x256, .f32⟩
  | .hbm, ⟨46, _⟩ => ⟨S16x256x256, .f32⟩
  | .hbm, ⟨47, _⟩ => ⟨S16x256x256, .f32⟩
  | .hbm, ⟨48, _⟩ => ⟨S16x256x256, .f32⟩
  | .hbm, ⟨49, _⟩ => ⟨S_, .f32⟩
  | .hbm, ⟨50, _⟩ => ⟨S16x256x256, .f32⟩
  | .hbm, ⟨51, _⟩ => ⟨S16x256x256, .f32⟩
  | .hbm, ⟨52, _⟩ => ⟨S16x256x256, .f32⟩
  | .hbm, ⟨53, _⟩ => ⟨S16x256x256, .f32⟩
  | .hbm, ⟨54, _⟩ => ⟨S16x256x256x1, .f32⟩
  | .hbm, ⟨55, _⟩ => ⟨S16x256x256x1, .f32⟩
  | .hbm, ⟨56, _⟩ => ⟨S16x256x256x1, .f32⟩
  | .hbm, ⟨57, _⟩ => ⟨S16x256x256x1, .f32⟩
  | .hbm, ⟨58, _⟩ => ⟨S16x256x256x1, .f32⟩
  | .hbm, ⟨59, _⟩ => ⟨S16x256x256x1, .f32⟩
  | .hbm, ⟨60, _⟩ => ⟨S16x256x256x1, .f32⟩
  | .hbm, ⟨61, _⟩ => ⟨S16x256x256x1, .f32⟩
  | .hbm, ⟨62, _⟩ => ⟨S16x256x256x1, .f32⟩
  | .hbm, ⟨63, _⟩ => ⟨S16x256x256x1, .f32⟩
  | .hbm, ⟨64, _⟩ => ⟨S16x256x256x1, .f32⟩
  | .hbm, ⟨65, _⟩ => ⟨S16x256x256x1, .f32⟩
  | .hbm, ⟨66, _⟩ => ⟨S16x256x256x12, .f32⟩
  | .hbm, ⟨67, _⟩ => ⟨S16x256x256x64, .f32⟩
  | .hbm, ⟨68, _⟩ => ⟨S1x1x1x64, .f32⟩
  | .hbm, ⟨69, _⟩ => ⟨S16x256x256x64, .f32⟩
  | .hbm, ⟨70, _⟩ => ⟨S16x256x256x64, .f32⟩
  | .hbm, ⟨71, _⟩ => ⟨S16x256x256x64, .f32⟩
  | .hbm, ⟨72, _⟩ => ⟨S16x256x256x64, .f32⟩
  | .hbm, ⟨73, _⟩ => ⟨S_, .f32⟩
  | .hbm, ⟨74, _⟩ => ⟨S16x256x256x64, .f32⟩
  | .hbm, ⟨75, _⟩ => ⟨S16x256x256x64, .f32⟩
  | .hbm, ⟨76, _⟩ => ⟨S_, .f32⟩
  | .hbm, ⟨77, _⟩ => ⟨S16x256x256x64, .f32⟩
  | .hbm, ⟨78, _⟩ => ⟨S16x256x256x64, .f32⟩
  | .hbm, ⟨79, _⟩ => ⟨S16x256x256x64, .f32⟩
  | .hbm, ⟨80, _⟩ => ⟨S16x256x256x8, .f32⟩
  | .hbm, ⟨81, _⟩ => ⟨S1x1x1x8, .f32⟩
  | .hbm, ⟨82, _⟩ => ⟨S16x256x256x8, .f32⟩
  | .hbm, ⟨83, _⟩ => ⟨S16x256x256x8, .f32⟩
  | .hbm, ⟨84, _⟩ => ⟨S16x8x256x256, .f32⟩
  | _, _ => ⟨S16x256x256x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_call0_v0 : Ref sig .tc := ⟨.hbm, 71, rfl⟩
abbrev main_call0_v1 : Ref sig .tc := ⟨.hbm, 72, rfl⟩
abbrev main_call0_cst : Ref sig .tc := ⟨.hbm, 73, rfl⟩
abbrev main_call0_v2 : Ref sig .tc := ⟨.hbm, 74, rfl⟩
abbrev main_call0_v3 : Ref sig .tc := ⟨.hbm, 75, rfl⟩
abbrev main_call0_cst_0 : Ref sig .tc := ⟨.hbm, 76, rfl⟩
abbrev main_call0_v4 : Ref sig .tc := ⟨.hbm, 77, rfl⟩
abbrev main_call0_v5 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩

abbrev nD : Nat := 1
abbrev τ : Topo := Topo.v7x

variable {F : FTy → Type} [FloatOps F]

class Facts₀ : Prop where
  slices_S16x256x256x4_S16x256x256x1_0_0_0_0 : S16x256x256x4.Slices ![0, 0, 0, 0] S16x256x256x1
  shapeCasts_S16x256x256x1_S16x256x256 : S16x256x256x1.ShapeCasts S16x256x256
  slices_S16x256x256x4_S16x256x256x1_0_0_0_1 : S16x256x256x4.Slices ![0, 0, 0, 1] S16x256x256x1
  slices_S16x256x256x4_S16x256x256x1_0_0_0_2 : S16x256x256x4.Slices ![0, 0, 0, 2] S16x256x256x1
  slices_S16x256x256x4_S16x256x256x1_0_0_0_3 : S16x256x256x4.Slices ![0, 0, 0, 3] S16x256x256x1
  bcast_S_S16x256x256 : S_.BroadcastsInDim S16x256x256 (![] : Fin 0 → Fin S16x256x256.rank)
  bcast_S16x256x256_S16x256x256x1_0_1_2 : S16x256x256.BroadcastsInDim S16x256x256x1 (![0, 1, 2] : Fin 3 → Fin S16x256x256x1.rank)
  concatenates_S16x256x256x1_S16x256x256x1_S16x256x256x1_S16x256x256x1_S16x256x256x1_S16x256x256x1_S16x256x256x1_S16x256x256x1_S16x256x256x1_S16x256x256x1_S16x256x256x1_S16x256x256x1_S16x256x256x12_d3 : Shape.Concatenates [S16x256x256x1, S16x256x256x1, S16x256x256x1, S16x256x256x1, S16x256x256x1, S16x256x256x1, S16x256x256x1, S16x256x256x1, S16x256x256x1, S16x256x256x1, S16x256x256x1, S16x256x256x1] S16x256x256x12 3
  bcast_S64_S1x1x1x64_3 : S64.BroadcastsInDim S1x1x1x64 (![3] : Fin 1 → Fin S1x1x1x64.rank)
  bcast_S1x1x1x64_S16x256x256x64_0_1_2_3 : S1x1x1x64.BroadcastsInDim S16x256x256x64 (![0, 1, 2, 3] : Fin 4 → Fin S16x256x256x64.rank)
  bcast_S_S16x256x256x64 : S_.BroadcastsInDim S16x256x256x64 (![] : Fin 0 → Fin S16x256x256x64.rank)
  bcast_S8_S1x1x1x8_3 : S8.BroadcastsInDim S1x1x1x8 (![3] : Fin 1 → Fin S1x1x1x8.rank)
  bcast_S1x1x1x8_S16x256x256x8_0_1_2_3 : S1x1x1x8.BroadcastsInDim S16x256x256x8 (![0, 1, 2, 3] : Fin 4 → Fin S16x256x256x8.rank)
  transposes_S16x256x256x8_S16x8x256x256_0_3_1_2 : S16x256x256x8.Transposes [0, 3, 1, 2] S16x8x256x256
  dot_S16x256x256x12_S12x64_S16x256x256x64_3_0_012_1_n_n_wf : DotDims.WF S16x256x256x12 S12x64 S16x256x256x64 [3] [0] [0, 1, 2] [1] [] []
  dot_S16x256x256x64_S64x8_S16x256x256x8_3_0_012_1_n_n_wf : DotDims.WF S16x256x256x64 S64x8 S16x256x256x8 [3] [0] [0, 1, 2] [1] [] []

variable [Facts₀]

def dot_S16x256x256x12_S12x64_S16x256x256x64_3_0_012_1_n_n : DotDims S16x256x256x12 S12x64 S16x256x256x64 where
  lhsContracting := [3]
  rhsContracting := [0]
  lhsNonContracting := [0, 1, 2]
  rhsNonContracting := [1]
  lhsBatch := []
  rhsBatch := []
  wf := dot_S16x256x256x12_S12x64_S16x256x256x64_3_0_012_1_n_n_wf
def dot_S16x256x256x64_S64x8_S16x256x256x8_3_0_012_1_n_n : DotDims S16x256x256x64 S64x8 S16x256x256x8 where
  lhsContracting := [3]
  rhsContracting := [0]
  lhsNonContracting := [0, 1, 2]
  rhsNonContracting := [1]
  lhsBatch := []
  rhsBatch := []
  wf := dot_S16x256x256x64_S64x8_S16x256x256x8_3_0_012_1_n_n_wf

class Facts : Prop extends Facts₀ where

variable [Facts]
-- ==== Proof.Spec.lean ====
/-
  The mathematics both programs compute, stated once over plain functions.

  A pixel carries four numbers (rx, ry, vx, vy).  Twelve features are formed from them: the four inputs, the
  distance d = sqrt(rx^2 + ry^2 + eps), 1/(d + 0.1), the speed sqrt(vx^2 + vy^2 + eps), the closing speed
  (vx rx + vy ry)/(d + eps), the direction (rx, ry)/(d + eps), tanh(-(vx rx + vy ry)/(vx^2 + vy^2 + eps)) and the
  inner product vx rx + vy ry itself.  The features go through a two-layer perceptron 12 -> 64 -> 8 with the
  activation z * logistic z.  The result array holds, at (b, o, n, m), output o of the perceptron at pixel (b, n, m).

  One side spells a quotient x / y as x * (1 / y), and a negation -x as 0 - x.  On the extended reals these agree as
  soon as the divisor is not zero; here each divisor is a sum of squares plus eps (or its root plus eps), which is
  positive whatever the inputs are, infinite ones included.
-/
import Idealize.ShloMosaic.PureOps.Ideal
import Idealize.ShloMosaic.PureOps.Ideal.Laws
import Idealize.ShloMosaic.Lib.IdealHost
import Idealize.ShloMosaic.Lib.ValueIdx

noncomputable section

namespace Cert.Mlp

open Idealize.ShloMosaic Idealize.ShloMosaic.ValueIdx

/-- The small constant the source writes 1e-6, as the extended real its float pattern denotes. -/
def eps : EReal := Ideal.ofBits .f32 0x358637BD#32
/-- The constant the source writes 0.1, as the extended real its float pattern denotes. -/
def tenth : EReal := Ideal.ofBits .f32 0x3DCCCCCD#32

/-- The distance sqrt(rx^2 + ry^2 + eps). -/
def dist (rx ry : EReal) : EReal := Ideal.sqrt (rx * rx + ry * ry + eps)
/-- The inner product of velocity and position. -/
def dotvp (rx ry vx vy : EReal) : EReal := vx * rx + vy * ry
/-- The squared speed. -/
def speedSq (vx vy : EReal) : EReal := vx * vx + vy * vy

/-- The twelve features of one pixel, quotients written as quotients. -/
def feat (rx ry vx vy : EReal) : Fin 12 → EReal :=
  ![rx, ry, vx, vy, dist rx ry, Ideal.div 1 (dist rx ry + tenth), Ideal.sqrt (speedSq vx vy + eps),
    Ideal.div (dotvp rx ry vx vy) (dist rx ry + eps), Ideal.div rx (dist rx ry + eps), Ideal.div ry (dist rx ry + eps),
    Ideal.tanh (Ideal.div (-(dotvp rx ry vx vy)) (speedSq vx vy + eps)), dotvp rx ry vx vy]

/-- The same features with each quotient written as a product with a reciprocal and the negation as a difference from zero. -/
def featRecip (rx ry vx vy : EReal) : Fin 12 → EReal :=
  ![rx, ry, vx, vy, dist rx ry, Ideal.div 1 (dist rx ry + tenth), Ideal.sqrt (speedSq vx vy + eps),
    dotvp rx ry vx vy * Ideal.div 1 (dist rx ry + eps), rx * Ideal.div 1 (dist rx ry + eps), ry * Ideal.div 1 (dist rx ry + eps),
    Ideal.tanh ((0 - dotvp rx ry vx vy) * Ideal.div 1 (speedSq vx vy + eps)), dotvp rx ry vx vy]

/-- One hidden unit: z * logistic z at z = sum_k f k * w1 k h + b1 h. -/
def hidden (f : Fin 12 → EReal) (w1 : Fin 12 → Fin 64 → EReal) (b1 : Fin 64 → EReal) (h : Fin 64) : EReal :=
  ((∑ k : Fin 12, f k * w1 k h) + b1 h) * Ideal.logistic ((∑ k : Fin 12, f k * w1 k h) + b1 h)

/-- One output of the perceptron. -/
def mlp (f : Fin 12 → EReal) (w1 : Fin 12 → Fin 64 → EReal) (b1 : Fin 64 → EReal) (w2 : Fin 64 → Fin 8 → EReal)
    (b2 : Fin 8 → EReal) (o : Fin 8) : EReal :=
  (∑ h : Fin 64, hidden f w1 b1 h * w2 h o) + b2 o

abbrev SFeat : Shape := ⟨4, ![16, 256, 256, 4]⟩
abbrev SW1 : Shape := ⟨2, ![12, 64]⟩
abbrev SB1 : Shape := ⟨1, ![64]⟩
abbrev SW2 : Shape := ⟨2, ![64, 8]⟩
abbrev SB2 : Shape := ⟨1, ![8]⟩
abbrev SRes : Shape := ⟨4, ![16, 8, 256, 256]⟩

/-- The features of pixel (b, n, m) of the input array. -/
def pix (ff : SFeat.Idx → EReal) (b : Fin 16) (n m : Fin 256) : Fin 12 → EReal :=
  feat (ff (ix4 b n m 0)) (ff (ix4 b n m 1)) (ff (ix4 b n m 2)) (ff (ix4 b n m 3))

/-- The whole result: entry (b, o, n, m) is output o of the perceptron at pixel (b, n, m). -/
def result (ff : SFeat.Idx → EReal) (W1 : SW1.Idx → EReal) (b1 : SB1.Idx → EReal) (W2 : SW2.Idx → EReal)
    (b2 : SB2.Idx → EReal) : SRes.Idx → EReal := fun j =>
  mlp (pix ff (j 0) (j 2) (j 3)) (fun k h => W1 (ix2 k h)) (fun h => b1 (ix1 h)) (fun h o => W2 (ix2 h o))
    (fun o => b2 (ix1 o)) (j 1)

/-! ## The divisors are positive -/

theorem eps_pos : (0 : EReal) < eps := by
  unfold eps
  simp [Ideal.ofBits, Ideal.ieee, -EReal.coe_mul]

theorem mul_self_nonneg' (a : EReal) : 0 ≤ a * a := by
  induction a using EReal.rec with
  | bot => rw [EReal.bot_mul_bot]; exact le_top
  | coe r => rw [← EReal.coe_mul]; exact EReal.coe_nonneg.mpr (mul_self_nonneg r)
  | top => rw [EReal.top_mul_top]; exact le_top

theorem sqrt_nonneg' {x : EReal} (hx : 0 ≤ x) : 0 ≤ Ideal.sqrt x := by
  induction x using EReal.rec with
  | bot => exact absurd hx (by simp)
  | coe r =>
    rw [Ideal.sqrt_coe, if_neg (not_lt.mpr (EReal.coe_nonneg.mp hx))]
    exact EReal.coe_nonneg.mpr (Real.sqrt_nonneg r)
  | top => rw [Ideal.sqrt_top]; exact le_top

theorem sumsq_eps_pos (a b : EReal) : 0 < a * a + b * b + eps :=
  lt_of_lt_of_le eps_pos (le_add_of_nonneg_left (add_nonneg (mul_self_nonneg' a) (mul_self_nonneg' b)))

theorem speed_eps_pos (vx vy : EReal) : 0 < speedSq vx vy + eps := sumsq_eps_pos vx vy

theorem dist_eps_pos (rx ry : EReal) : 0 < dist rx ry + eps :=
  lt_of_lt_of_le eps_pos (le_add_of_nonneg_left (sqrt_nonneg' (sumsq_eps_pos rx ry).le))

/-- Multiplying by the reciprocal of a positive number is dividing by it. -/
theorem mul_recip {d : EReal} (hd : 0 < d) (x : EReal) : x * Ideal.div 1 d = Ideal.div x d := by
  rw [Ideal.div, if_neg hd.ne', one_mul, Ideal.div, if_neg hd.ne']

theorem featRecip_eq (rx ry vx vy : EReal) : featRecip rx ry vx vy = feat rx ry vx vy := by
  unfold featRecip feat
  rw [mul_recip (dist_eps_pos rx ry), mul_recip (dist_eps_pos rx ry), mul_recip (dist_eps_pos rx ry),
    mul_recip (speed_eps_pos vx vy), sub_eq_add_neg, zero_add]

end Cert.Mlp

end
-- ==== Proof.KernelPoint.lean ====
/-
  One lane of one grid point of the kernel, read at an index: entry (0, o, l) of the value the body stores is
  output o of the perceptron at the pixel whose four numbers are column l of the loaded feature block, with the
  weight blocks read transposed (the kernel holds W1 as [64, 12] and W2 as [8, 64]) and the biases as columns.
-/
import proofs.«417203_j38646115729916_3_alg».proof.Proof.Gen.KernelIdeal.Skeleton
import proofs.«417203_j38646115729916_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Mlp.Point

open Idealize.ShloMosaic Idealize.ShloMosaic.ValueIdx Cert.KernelIdeal Cert.KernelIdeal.Gen

/-! ## Pointwise operations that have no read-at-an-index lemma in the library -/

section Pointwise
variable {s : Shape} {φ : FTy}

/-- A square root at an index is the square root of the element. -/
theorem sqrt_apply (a : FVec Ideal s φ) (i : s.Idx) : sqrt a i = Ideal.sqrt (a i) := rfl
/-- A hyperbolic tangent at an index is that of the element. -/
theorem tanh_apply (a : FVec Ideal s φ) (i : s.Idx) : tanh a i = Ideal.tanh (a i) := rfl
/-- A logistic at an index is that of the element. -/
theorem logistic_apply (a : FVec Ideal s φ) (i : s.Idx) : logistic a i = Ideal.logistic (a i) := rfl

end Pointwise

/-! ## The four rows of the feature block -/

section Rows
variable {α : Type}

/-- Row r of the block viewed as [4, 16384], cut out as a [1, 16384] slice, holds at lane l the block's entry (0, r, l). -/
theorem row_apply (v0 : S1x4x16384.Idx → α) (r : Fin 4) (off : Fin 2 → Nat) (hoff : off = ![r.val, 0])
    (hc : S1x4x16384.ShapeCasts S4x16384) (hs : S4x16384.Slices off S1x16384) (l : Fin 16384) :
    extractStridedSlice S1x16384 off (shapeCast S4x16384 v0 hc) hs (ix2 0 l) = v0 (ix3 0 r l) := by
  subst hoff
  refine (extractStridedSlice_apply _ _ hs (ix2 0 l) (ix2 r l) ?_).trans ?_
  · intro a
    match a with
    | ⟨0, _⟩ => show r.val = r.val + 0; omega
    | ⟨1, _⟩ => show l.val = 0 + l.val; omega
  · refine shapeCast_apply v0 hc (ix2 r l) (ix3 0 r l) ?_
    rw [Shape.rowMajor_val_three, Shape.rowMajor_val_two]
    show (0 * 4 + r.val) * 16384 + l.val = r.val * 16384 + l.val
    omega

theorem row0_apply (v0 : S1x4x16384.Idx → α) (hc : S1x4x16384.ShapeCasts S4x16384)
    (hs : S4x16384.Slices ![0, 0] S1x16384) (l : Fin 16384) :
    extractStridedSlice S1x16384 ![0, 0] (shapeCast S4x16384 v0 hc) hs (ix2 0 l) = v0 (ix3 0 0 l) :=
  row_apply v0 0 _ rfl hc hs l
theorem row1_apply (v0 : S1x4x16384.Idx → α) (hc : S1x4x16384.ShapeCasts S4x16384)
    (hs : S4x16384.Slices ![1, 0] S1x16384) (l : Fin 16384) :
    extractStridedSlice S1x16384 ![1, 0] (shapeCast S4x16384 v0 hc) hs (ix2 0 l) = v0 (ix3 0 1 l) :=
  row_apply v0 1 _ rfl hc hs l
theorem row2_apply (v0 : S1x4x16384.Idx → α) (hc : S1x4x16384.ShapeCasts S4x16384)
    (hs : S4x16384.Slices ![2, 0] S1x16384) (l : Fin 16384) :
    extractStridedSlice S1x16384 ![2, 0] (shapeCast S4x16384 v0 hc) hs (ix2 0 l) = v0 (ix3 0 2 l) :=
  row_apply v0 2 _ rfl hc hs l
theorem row3_apply (v0 : S1x4x16384.Idx → α) (hc : S1x4x16384.ShapeCasts S4x16384)
    (hs : S4x16384.Slices ![3, 0] S1x16384) (l : Fin 16384) :
    extractStridedSlice S1x16384 ![3, 0] (shapeCast S4x16384 v0 hc) hs (ix2 0 l) = v0 (ix3 0 3 l) :=
  row_apply v0 3 _ rfl hc hs l

end Rows

/-! ## The stack of twelve feature rows -/

/-- A stack of [1, 16384] rows along axis 0 into a [12, 16384] array, read at (k, l): row k at lane l. -/
theorem stack_apply {α : Type} (xs : List ((s : Shape) × (s.Idx → α)))
    (h : Shape.Concatenates (xs.map (·.1)) S12x16384 0) (k : Fin 12) (l : Fin 16384) (hk : k.val < xs.length)
    (x₁ : S1x16384.Idx → α) (hxk : xs[k.val] = ⟨S1x16384, x₁⟩)
    (hpre : (((xs.take k.val).map (·.1)).map fun s =>
      if h : s.rank = S12x16384.rank then s.size ((0 : Fin S12x16384.rank).cast h.symm) else 0).sum = k.val) :
    concatenate S12x16384 0 xs h (ix2 k l) = x₁ (ix2 0 l) :=
  concatenate_apply_piece (t := S12x16384) (0 : Fin 2) xs h (ix2 k l) k.val hk S1x16384 x₁ hxk rfl k.val hpre (ix2 0 l)
    (fun b hb => match b with
      | ⟨0, _⟩ => absurd rfl hb
      | ⟨1, _⟩ => rfl) rfl

/-- One row of the stack read at a lane: every operation in it is pointwise down to the four rows of the block, the
    constants one and zero are the extended reals one and zero, and what is left is the feature's definition. -/
local macro "read_lane" : tactic => `(tactic| (
  simp only [mulf_apply, addf_apply, divf_apply, subf_apply, broadcast_apply, sqrt_apply, tanh_apply, row0_apply,
    row1_apply, row2_apply, row3_apply, Ideal.ofBits_def, Ideal.ofBits_one_f32, Ideal.ofBits_zero_f32]
  rfl))

/-- The feature array the kernel forms from a loaded block holds, at (k, l), feature k of the pixel in lane l, each
    quotient spelt as a product with a reciprocal. -/
theorem feats_apply (v0 : Vec Ideal S1x4x16384 .f32) (k : Fin 12) (l : Fin 16384) :
    k0_pay2 (F := Ideal) v0 (ix2 k l)
      = Cert.Mlp.featRecip (v0 (ix3 0 0 l)) (v0 (ix3 0 1 l)) (v0 (ix3 0 2 l)) (v0 (ix3 0 3 l)) k := by
  unfold k0_pay2
  rw [truncf_apply]
  match k with
  | ⟨0, hk⟩ =>
    refine (stack_apply _ _ ⟨0, hk⟩ l (by show (0 : Nat) < 12; decide) _ rfl rfl).trans ?_
    read_lane
  | ⟨1, hk⟩ =>
    refine (stack_apply _ _ ⟨1, hk⟩ l (by show (1 : Nat) < 12; decide) _ rfl rfl).trans ?_
    read_lane
  | ⟨2, hk⟩ =>
    refine (stack_apply _ _ ⟨2, hk⟩ l (by show (2 : Nat) < 12; decide) _ rfl rfl).trans ?_
    read_lane
  | ⟨3, hk⟩ =>
    refine (stack_apply _ _ ⟨3, hk⟩ l (by show (3 : Nat) < 12; decide) _ rfl rfl).trans ?_
    read_lane
  | ⟨4, hk⟩ =>
    refine (stack_apply _ _ ⟨4, hk⟩ l (by show (4 : Nat) < 12; decide) _ rfl rfl).trans ?_
    read_lane
  | ⟨5, hk⟩ =>
    refine (stack_apply _ _ ⟨5, hk⟩ l (by show (5 : Nat) < 12; decide) _ rfl rfl).trans ?_
    read_lane
  | ⟨6, hk⟩ =>
    refine (stack_apply _ _ ⟨6, hk⟩ l (by show (6 : Nat) < 12; decide) _ rfl rfl).trans ?_
    read_lane
  | ⟨7, hk⟩ =>
    refine (stack_apply _ _ ⟨7, hk⟩ l (by show (7 : Nat) < 12; decide) _ rfl rfl).trans ?_
    read_lane
  | ⟨8, hk⟩ =>
    refine (stack_apply _ _ ⟨8, hk⟩ l (by show (8 : Nat) < 12; decide) _ rfl rfl).trans ?_
    read_lane
  | ⟨9, hk⟩ =>
    refine (stack_apply _ _ ⟨9, hk⟩ l (by show (9 : Nat) < 12; decide) _ rfl rfl).trans ?_
    read_lane
  | ⟨10, hk⟩ =>
    refine (stack_apply _ _ ⟨10, hk⟩ l (by show (10 : Nat) < 12; decide) _ rfl rfl).trans ?_
    read_lane
  | ⟨11, hk⟩ =>
    refine (stack_apply _ _ ⟨11, hk⟩ l (by show (11 : Nat) < 12; decide) _ rfl rfl).trans ?_
    read_lane
  | ⟨n + 12, hk⟩ => exact absurd hk (by omega)

/-! ## The two matrix products, read at an element

Each contracts the one axis the two operands share; into a zero accumulator the element at (p, l) is the sum over that
axis of the left operand's row p times the right operand's column l. -/

theorem lhs_w1_0 (i : S64x16384.Idx) (q : dot_S64x12_S12x16384_S64x16384_1_0_0_1_n_n.contr.Idx) :
    (dot_S64x12_S12x16384_S64x16384_1_0_0_1_n_n.lhsIdx i q 0).val = (i 0).val := by
  unfold DotDims.lhsIdx
  rw [dif_neg (show ¬(0 : Fin S64x12.rank) ∈ dot_S64x12_S12x16384_S64x16384_1_0_0_1_n_n.lhsBatch by decide), dif_pos (show (0 : Fin S64x12.rank) ∈ dot_S64x12_S12x16384_S64x16384_1_0_0_1_n_n.lhsNonContracting by decide)]
  rfl
theorem lhs_w1_1 (i : S64x16384.Idx) (q : dot_S64x12_S12x16384_S64x16384_1_0_0_1_n_n.contr.Idx) :
    (dot_S64x12_S12x16384_S64x16384_1_0_0_1_n_n.lhsIdx i q 1).val = (q ⟨0, by decide⟩).val :=
  dot_S64x12_S12x16384_S64x16384_1_0_0_1_n_n.lhsIdx_val_of_single rfl i q
theorem rhs_w1_0 (i : S64x16384.Idx) (q : dot_S64x12_S12x16384_S64x16384_1_0_0_1_n_n.contr.Idx) :
    (dot_S64x12_S12x16384_S64x16384_1_0_0_1_n_n.rhsIdx i q 0).val = (q ⟨0, by decide⟩).val :=
  dot_S64x12_S12x16384_S64x16384_1_0_0_1_n_n.rhsIdx_val_of_single rfl i q
theorem rhs_w1_1 (i : S64x16384.Idx) (q : dot_S64x12_S12x16384_S64x16384_1_0_0_1_n_n.contr.Idx) :
    (dot_S64x12_S12x16384_S64x16384_1_0_0_1_n_n.rhsIdx i q 1).val = (i 1).val := by
  unfold DotDims.rhsIdx
  rw [dif_neg (show ¬(1 : Fin S12x16384.rank) ∈ dot_S64x12_S12x16384_S64x16384_1_0_0_1_n_n.rhsBatch by decide), dif_pos (show (1 : Fin S12x16384.rank) ∈ dot_S64x12_S12x16384_S64x16384_1_0_0_1_n_n.rhsNonContracting by decide)]
  rfl

/-- The first product: hidden row p at lane l is the sum over the twelve features. -/
theorem matmul_w1_apply (A : FVec Ideal S64x12 .bf16) (B : FVec Ideal S12x16384 .bf16) (p : Fin 64) (l : Fin 16384) :
    matmul (F := Ideal) dot_S64x12_S12x16384_S64x16384_1_0_0_1_n_n none A B (constant (F := Ideal) S64x16384 .f32 0x00000000#32) (ix2 p l)
      = ∑ k : Fin 12, A (ix2 p k) * B (ix2 k l) := by
  simp only [matmul]
  rw [Ideal.matmul_constant_zero_apply, ← Equiv.sum_comp (contrEquiv1 dot_S64x12_S12x16384_S64x16384_1_0_0_1_n_n 12 rfl rfl).symm]
  refine Finset.sum_congr rfl fun k _ => ?_
  have hk := contrEquiv1_symm_val dot_S64x12_S12x16384_S64x16384_1_0_0_1_n_n 12 rfl rfl k
  have el : dot_S64x12_S12x16384_S64x16384_1_0_0_1_n_n.lhsIdx (ix2 p l) ((contrEquiv1 dot_S64x12_S12x16384_S64x16384_1_0_0_1_n_n 12 rfl rfl).symm k) = ix2 p k := funext fun a => Fin.ext (by
    match a with
    | ⟨0, _⟩ => exact lhs_w1_0 _ _
    | ⟨1, _⟩ => exact (lhs_w1_1 _ _).trans hk)
  have er : dot_S64x12_S12x16384_S64x16384_1_0_0_1_n_n.rhsIdx (ix2 p l) ((contrEquiv1 dot_S64x12_S12x16384_S64x16384_1_0_0_1_n_n 12 rfl rfl).symm k) = ix2 k l := funext fun a => Fin.ext (by
    match a with
    | ⟨0, _⟩ => exact (rhs_w1_0 _ _).trans hk
    | ⟨1, _⟩ => exact rhs_w1_1 _ _)
  rw [el, er]

theorem lhs_w2_0 (i : S8x16384.Idx) (q : dot_S8x64_S64x16384_S8x16384_1_0_0_1_n_n.contr.Idx) :
    (dot_S8x64_S64x16384_S8x16384_1_0_0_1_n_n.lhsIdx i q 0).val = (i 0).val := by
  unfold DotDims.lhsIdx
  rw [dif_neg (show ¬(0 : Fin S8x64.rank) ∈ dot_S8x64_S64x16384_S8x16384_1_0_0_1_n_n.lhsBatch by decide), dif_pos (show (0 : Fin S8x64.rank) ∈ dot_S8x64_S64x16384_S8x16384_1_0_0_1_n_n.lhsNonContracting by decide)]
  rfl
theorem lhs_w2_1 (i : S8x16384.Idx) (q : dot_S8x64_S64x16384_S8x16384_1_0_0_1_n_n.contr.Idx) :
    (dot_S8x64_S64x16384_S8x16384_1_0_0_1_n_n.lhsIdx i q 1).val = (q ⟨0, by decide⟩).val :=
  dot_S8x64_S64x16384_S8x16384_1_0_0_1_n_n.lhsIdx_val_of_single rfl i q
theorem rhs_w2_0 (i : S8x16384.Idx) (q : dot_S8x64_S64x16384_S8x16384_1_0_0_1_n_n.contr.Idx) :
    (dot_S8x64_S64x16384_S8x16384_1_0_0_1_n_n.rhsIdx i q 0).val = (q ⟨0, by decide⟩).val :=
  dot_S8x64_S64x16384_S8x16384_1_0_0_1_n_n.rhsIdx_val_of_single rfl i q
theorem rhs_w2_1 (i : S8x16384.Idx) (q : dot_S8x64_S64x16384_S8x16384_1_0_0_1_n_n.contr.Idx) :
    (dot_S8x64_S64x16384_S8x16384_1_0_0_1_n_n.rhsIdx i q 1).val = (i 1).val := by
  unfold DotDims.rhsIdx
  rw [dif_neg (show ¬(1 : Fin S64x16384.rank) ∈ dot_S8x64_S64x16384_S8x16384_1_0_0_1_n_n.rhsBatch by decide), dif_pos (show (1 : Fin S64x16384.rank) ∈ dot_S8x64_S64x16384_S8x16384_1_0_0_1_n_n.rhsNonContracting by decide)]
  rfl

/-- The second product: output row p at lane l is the sum over the sixty-four hidden units. -/
theorem matmul_w2_apply (A : FVec Ideal S8x64 .bf16) (B : FVec Ideal S64x16384 .bf16) (p : Fin 8) (l : Fin 16384) :
    matmul (F := Ideal) dot_S8x64_S64x16384_S8x16384_1_0_0_1_n_n none A B (constant (F := Ideal) S8x16384 .f32 0x00000000#32) (ix2 p l)
      = ∑ k : Fin 64, A (ix2 p k) * B (ix2 k l) := by
  simp only [matmul]
  rw [Ideal.matmul_constant_zero_apply, ← Equiv.sum_comp (contrEquiv1 dot_S8x64_S64x16384_S8x16384_1_0_0_1_n_n 64 rfl rfl).symm]
  refine Finset.sum_congr rfl fun k _ => ?_
  have hk := contrEquiv1_symm_val dot_S8x64_S64x16384_S8x16384_1_0_0_1_n_n 64 rfl rfl k
  have el : dot_S8x64_S64x16384_S8x16384_1_0_0_1_n_n.lhsIdx (ix2 p l) ((contrEquiv1 dot_S8x64_S64x16384_S8x16384_1_0_0_1_n_n 64 rfl rfl).symm k) = ix2 p k := funext fun a => Fin.ext (by
    match a with
    | ⟨0, _⟩ => exact lhs_w2_0 _ _
    | ⟨1, _⟩ => exact (lhs_w2_1 _ _).trans hk)
  have er : dot_S8x64_S64x16384_S8x16384_1_0_0_1_n_n.rhsIdx (ix2 p l) ((contrEquiv1 dot_S8x64_S64x16384_S8x16384_1_0_0_1_n_n 64 rfl rfl).symm k) = ix2 k l := funext fun a => Fin.ext (by
    match a with
    | ⟨0, _⟩ => exact (rhs_w2_0 _ _).trans hk
    | ⟨1, _⟩ => exact rhs_w2_1 _ _)
  rw [el, er]

/-! ## A column broadcast along the lanes -/

/-- A column [a, 1] broadcast to [a, b] holds at (p, q) the column's entry p. -/
theorem column_apply {α : Type} {a b : Nat} (x : (⟨2, ![a, 1]⟩ : Shape).Idx → α)
    (hb : (⟨2, ![a, 1]⟩ : Shape).Broadcasts ⟨2, ![a, b]⟩) (p : Fin a) (q : Fin b) :
    broadcastTo ⟨2, ![a, b]⟩ x hb (ix2 p q) = x (ix2 p 0) := by
  refine broadcastTo_apply x hb (ix2 p q) (ix2 p 0) fun c => ?_
  match c with
  | ⟨0, _⟩ =>
    show p.val = if a = 1 then 0 else p.val
    split
    · have := p.isLt; omega
    · rfl
  | ⟨1, _⟩ => show (0 : Nat) = if (1 : Nat) = 1 then 0 else q.val; rw [if_pos rfl]

/-! ## The stored value at an index -/

theorem payload_apply (v0 : Vec Ideal S1x4x16384 .f32) (v42 : Vec Ideal S64x12 .f32) (v45 : Vec Ideal S64x1 .f32)
    (v53 : Vec Ideal S8x64 .f32) (v56 : Vec Ideal S8x1 .f32) (o : Fin 8) (l : Fin 16384) :
    k0_pay1 (F := Ideal) (k0_pay2 v0) (k0_pay3 v42) v45 v53 v56 (ix3 0 o l)
      = Cert.Mlp.mlp (Cert.Mlp.feat (v0 (ix3 0 0 l)) (v0 (ix3 0 1 l)) (v0 (ix3 0 2 l)) (v0 (ix3 0 3 l)))
          (fun k h => v42 (ix2 h k)) (fun h => v45 (ix2 h 0)) (fun h o => v53 (ix2 o h)) (fun o => v56 (ix2 o 0)) o := by
  unfold k0_pay1 k0_pay3
  -- the stored [1, 8, 16384] value at (0, o, l) is the [8, 16384] value at (o, l)
  refine (shapeCast_apply _ _ (ix3 0 o l) (ix2 o l) ?_).trans ?_
  · rw [Shape.rowMajor_val_two, Shape.rowMajor_val_three]
    show o.val * 16384 + l.val = (0 * 8 + o.val) * 16384 + l.val
    omega
  -- every operation down to the loaded blocks, read at its index
  simp only [addf_apply, mulf_apply, logistic_apply, truncf_apply, matmul_w2_apply, matmul_w1_apply, column_apply,
    shapeCast_self, feats_apply, Cert.Mlp.featRecip_eq, Ideal.logistic_def]
  -- what is left is the perceptron with each product's factors in the other order
  unfold Cert.Mlp.mlp Cert.Mlp.hidden
  have hs : ∀ h : Fin 64,
      (∑ k : Fin 12, v42 (ix2 h k) * Cert.Mlp.feat (v0 (ix3 0 0 l)) (v0 (ix3 0 1 l)) (v0 (ix3 0 2 l)) (v0 (ix3 0 3 l)) k)
        = ∑ k : Fin 12, Cert.Mlp.feat (v0 (ix3 0 0 l)) (v0 (ix3 0 1 l)) (v0 (ix3 0 2 l)) (v0 (ix3 0 3 l)) k * v42 (ix2 h k) :=
    fun h => Finset.sum_congr rfl fun k _ => mul_comm _ _
  simp only [hs]
  exact congrArg (· + v56 (ix2 o 0)) (Finset.sum_congr rfl fun h _ => mul_comm _ _)

end Cert.Mlp.Point

end
-- ==== Proof.KernelValue.lean ====
/-
  The kernel's result as one function of the argument arrays.

  The region is launched on a channel-first, flattened copy of the features ([16, 4, 65536]: entry (b, ch, p) is
  the input at image b, pixel p = 256 n + m, channel ch), on the transposed weights and on the biases as columns.
  Grid point (b, i) loads lanes 16384 i .. 16384 i + 16383 of image b and stores an [8, 16384] tile whose entry
  (o, l) is output o of the perceptron at pixel 16384 i + l.  The sixty-four tiles are disjoint and cover the
  [16, 8, 65536] array, so after the region entry (b, o, p) is output o at pixel p of image b; the reshape after
  the region reads p as (p / 256, p % 256), which gives the specification's entry (b, o, n, m).
-/
import proofs.«417203_j38646115729916_3_alg».proof.Proof.Gen.KernelIdeal.Frame
import proofs.«417203_j38646115729916_3_alg».proof.Proof.Spec
import proofs.«417203_j38646115729916_3_alg».proof.Proof.KernelPoint
import Idealize.ShloMosaic.Lib.Pipeline.Value
import Idealize.ShloMosaic.Lib.ValueIdx
import Idealize.ShloMosaic.Lib.StableHlo.Run

set_option maxRecDepth 16384

noncomputable section

namespace Cert.Mlp.Kernel

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ) (ρ : Dev nD → PrngReg)

/-! ## The arrays the region is launched on, as functions of the arguments -/

theorem V_v1 (c : Dev nD) : (V m c main_v1 : S16x4x65536.Idx → EReal)
    = shapeCast S16x4x65536 (transpose S16x4x256x256 [0, 3, 1, 2] (m ((c : Thread nD τ).loc main_arg0)) Facts₀.transposes_S16x256x256x4_S16x4x256x256_0_3_1_2) Facts₀.shapeCasts_S16x4x256x256_S16x4x65536 := by
  show StableHlo.after hostOps0 (fun b => m (c, b)) (Proc.devRef .tc main_v1) = _
  after_results <;> rfl

theorem V_v2 (c : Dev nD) : (V m c main_v2 : S64x12.Idx → EReal)
    = transpose S64x12 [1, 0] (m ((c : Thread nD τ).loc main_arg1)) Facts₀.transposes_S12x64_S64x12_1_0 := by
  show StableHlo.after hostOps0 (fun b => m (c, b)) (Proc.devRef .tc main_v2) = _
  after_results <;> rfl

theorem V_v3 (c : Dev nD) : (V m c main_v3 : S8x64.Idx → EReal)
    = transpose S8x64 [1, 0] (m ((c : Thread nD τ).loc main_arg3)) Facts₀.transposes_S64x8_S8x64_1_0 := by
  show StableHlo.after hostOps0 (fun b => m (c, b)) (Proc.devRef .tc main_v3) = _
  after_results <;> rfl

theorem V_v4 (c : Dev nD) : (V m c main_v4 : S64x1.Idx → EReal)
    = shapeCast S64x1 (m ((c : Thread nD τ).loc main_arg2)) Facts₀.shapeCasts_S64_S64x1 := by
  show StableHlo.after hostOps0 (fun b => m (c, b)) (Proc.devRef .tc main_v4) = _
  after_results <;> rfl

theorem V_v5 (c : Dev nD) : (V m c main_v5 : S8x1.Idx → EReal)
    = shapeCast S8x1 (m ((c : Thread nD τ).loc main_arg4)) Facts₀.shapeCasts_S8_S8x1 := by
  show StableHlo.after hostOps0 (fun b => m (c, b)) (Proc.devRef .tc main_v5) = _
  after_results <;> rfl

/-- The channel-first, flattened feature array at (b, ch, p) is the input at pixel p of image b, channel ch. -/
theorem V_v1_apply (c : Dev nD) (b : Fin 16) (ch : Fin 4) (p : Fin 65536) (n mm : Fin 256) (hp : p.val = n.val * 256 + mm.val) :
    (V m c main_v1 : S16x4x65536.Idx → EReal) (ix3 b ch p) = m ((c : Thread nD τ).loc main_arg0) (ix4 b n mm ch) := by
  rw [V_v1]
  rw [shapeCast_apply _ _ (ix3 b ch p) (ix4 b ch n mm) (by
    rw [Shape.rowMajor_val_four, Shape.rowMajor_val_three]
    show ((b.val * 4 + ch.val) * 256 + n.val) * 256 + mm.val = (b.val * 4 + ch.val) * 65536 + p.val
    omega)]
  exact transpose_apply _ _ _ (ix4 b ch n mm) (ix4 b n mm ch) (fun a => match a with
    | ⟨0, _⟩ => rfl
    | ⟨1, _⟩ => rfl
    | ⟨2, _⟩ => rfl
    | ⟨3, _⟩ => rfl)

theorem V_v2_apply (c : Dev nD) (h : Fin 64) (k : Fin 12) :
    (V m c main_v2 : S64x12.Idx → EReal) (ix2 h k) = m ((c : Thread nD τ).loc main_arg1) (ix2 k h) := by
  rw [V_v2]
  exact transpose_apply _ _ _ (ix2 h k) (ix2 k h) (fun a => match a with
    | ⟨0, _⟩ => rfl
    | ⟨1, _⟩ => rfl)

theorem V_v3_apply (c : Dev nD) (o : Fin 8) (h : Fin 64) :
    (V m c main_v3 : S8x64.Idx → EReal) (ix2 o h) = m ((c : Thread nD τ).loc main_arg3) (ix2 h o) := by
  rw [V_v3]
  exact transpose_apply _ _ _ (ix2 o h) (ix2 h o) (fun a => match a with
    | ⟨0, _⟩ => rfl
    | ⟨1, _⟩ => rfl)

theorem V_v4_apply (c : Dev nD) (h : Fin 64) :
    (V m c main_v4 : S64x1.Idx → EReal) (ix2 h 0) = m ((c : Thread nD τ).loc main_arg2) (ix1 h) := by
  rw [V_v4]
  exact shapeCast_apply _ _ (ix2 h (0 : Fin 1)) (ix1 h) (by
    rw [Shape.rowMajor_val_one, Shape.rowMajor_val_two]
    show h.val = h.val * 1 + 0
    omega)

theorem V_v5_apply (c : Dev nD) (o : Fin 8) :
    (V m c main_v5 : S8x1.Idx → EReal) (ix2 o 0) = m ((c : Thread nD τ).loc main_arg4) (ix1 o) := by
  rw [V_v5]
  exact shapeCast_apply _ _ (ix2 o (0 : Fin 1)) (ix1 o) (by
    rw [Shape.rowMajor_val_one, Shape.rowMajor_val_two]
    show o.val = o.val * 1 + 0
    omega)

/-! ## What the pipeline's output array holds -/

/-- The perceptron's output o at pixel p (row p / 256, column p % 256) of image b: the array [16, 8, 65536] the
    region writes, as one function of the arguments. -/
def flat (ff : S16x256x256x4.Idx → EReal) (W1 : S12x64.Idx → EReal) (b1 : S64.Idx → EReal) (W2 : S64x8.Idx → EReal)
    (b2 : S8.Idx → EReal) : S16x8x65536.Idx → EReal := fun i =>
  Cert.Mlp.mlp (Cert.Mlp.pix ff (i 0) ⟨(i 2).val / 256, by have h : (i 2).val < 65536 := (i 2).isLt; omega⟩ ⟨(i 2).val % 256, Nat.mod_lt _ (by decide)⟩)
    (fun k h => W1 (ix2 k h)) (fun h => b1 (ix1 h)) (fun h o => W2 (ix2 h o)) (fun o => b2 (ix1 o)) (i 1)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the grid: the feature window moves with the output window, the weight
    and bias windows stay at block 0, and the output's block indices stay in range. -/
theorem idx_facts : ∀ t : Fin cfg0.N, win0_0.index t (0 : Fin 3) = win0_5.index t (0 : Fin 3)
    ∧ win0_0.index t (1 : Fin 3) = 0
    ∧ win0_0.index t (2 : Fin 3) = win0_5.index t (2 : Fin 3)
    ∧ win0_5.index t (0 : Fin 3) ≤ 15
    ∧ win0_5.index t (1 : Fin 3) = 0
    ∧ win0_5.index t (2 : Fin 3) ≤ 3
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Every block of the output array is some point's. -/
theorem idx_onto : ∀ (q0 : Fin 16) (q2 : Fin 4), ∃ t : Fin cfg0.N, win0_5.index t = ![q0.val, 0, q2.val] :=
  (by decide +kernel : ∀ (q0 : Fin 16) (q2 : Fin 4), ∃ t : Fin grid0.N, win0_5.index t = ![q0.val, 0, q2.val])

/-- One grid point: when the loaded blocks are block (bb, i) of the feature array (lanes i * 16384 ..) and the
    whole transposed weights and column biases, lane l of row o of the stored value is the output array's entry
    (bb, o, i * 16384 + l). -/
theorem point_eq (x0 : Vec Ideal S1x4x16384 .f32) (x1 : Vec Ideal S64x12 .f32) (x2 : Vec Ideal S64x1 .f32)
    (x3 : Vec Ideal S8x64 .f32) (x4 : Vec Ideal S8x1 .f32)
    (ff : S16x256x256x4.Idx → EReal) (W1 : S12x64.Idx → EReal) (b1 : S64.Idx → EReal) (W2 : S64x8.Idx → EReal)
    (b2 : S8.Idx → EReal) (bb : Fin 16) (i : Fin 4)
    (h0 : ∀ (ch : Fin 4) (l : Fin 16384), x0 (ix3 0 ch l)
      = ff (ix4 bb ⟨(i.val * 16384 + l.val) / 256, by omega⟩ ⟨(i.val * 16384 + l.val) % 256, Nat.mod_lt _ (by decide)⟩ ch))
    (h1 : ∀ (h : Fin 64) (k : Fin 12), x1 (ix2 h k) = W1 (ix2 k h)) (h2 : ∀ h : Fin 64, x2 (ix2 h 0) = b1 (ix1 h))
    (h3 : ∀ (o : Fin 8) (h : Fin 64), x3 (ix2 o h) = W2 (ix2 h o)) (h4 : ∀ o : Fin 8, x4 (ix2 o 0) = b2 (ix1 o))
    (o : Fin 8) (l : Fin 16384) :
    k0_pay1 (F := Ideal) (k0_pay2 x0) (k0_pay3 x1) x2 x3 x4 (ix3 0 o l)
      = flat ff W1 b1 W2 b2 (ix3 bb o ⟨i.val * 16384 + l.val, by omega⟩) := by
  rw [Cert.Mlp.Point.payload_apply]
  unfold flat Cert.Mlp.pix
  simp only [h0, h1, h2, h3, h4]

/-! ## The blocks a grid point loads -/

theorem blk0_apply (c : Dev nD) (t : Fin cfg0.N) (ch : Fin 4) (l : Fin 16384) (bb : Fin 16) (i : Fin 4)
    (hb : win0_0.index t (0 : Fin 3) = bb.val) (h1 : win0_0.index t (1 : Fin 3) = 0) (hi : win0_0.index t (2 : Fin 3) = i.val) :
    iblk m c 0 t (ix3 0 ch l) = m ((c : Thread nD τ).loc main_arg0)
      (ix4 bb ⟨(i.val * 16384 + l.val) / 256, by omega⟩ ⟨(i.val * 16384 + l.val) % 256, Nat.mod_lt _ (by decide)⟩ ch) := by
  show V m c main_v1 (((cfg0.win 0).blk t).view.emb (ix3 0 ch l)) = _
  have e : ((cfg0.win 0).blk t).view.emb (ix3 0 ch l) = ix3 bb ch ⟨i.val * 16384 + l.val, by omega⟩ := by
    funext a; apply Fin.ext
    match a with
    | ⟨0, _⟩ => show win0_0.index t (0 : Fin 3) * 1 + 1 * 0 = bb.val; omega
    | ⟨1, _⟩ => show win0_0.index t (1 : Fin 3) * 4 + 1 * ch.val = ch.val; omega
    | ⟨2, _⟩ => show win0_0.index t (2 : Fin 3) * 16384 + 1 * l.val = i.val * 16384 + l.val; omega
  rw [e]
  exact V_v1_apply m c bb ch _ _ _ (by
    show i.val * 16384 + l.val = (i.val * 16384 + l.val) / 256 * 256 + (i.val * 16384 + l.val) % 256
    omega)

theorem blk1_apply (c : Dev nD) (t : Fin cfg0.N) (h : Fin 64) (k : Fin 12)
    (f0 : win0_1.index t (0 : Fin 2) = 0) (f1 : win0_1.index t (1 : Fin 2) = 0) :
    iblk m c 1 t (ix2 h k) = m ((c : Thread nD τ).loc main_arg1) (ix2 k h) := by
  show V m c main_v2 (((cfg0.win 1).blk t).view.emb (ix2 h k)) = _
  have e : ((cfg0.win 1).blk t).view.emb (ix2 h k) = ix2 h k := by
    funext a; apply Fin.ext
    match a with
    | ⟨0, _⟩ => show win0_1.index t (0 : Fin 2) * 64 + 1 * h.val = h.val; omega
    | ⟨1, _⟩ => show win0_1.index t (1 : Fin 2) * 12 + 1 * k.val = k.val; omega
  rw [e]
  exact V_v2_apply m c h k

theorem blk2_apply (c : Dev nD) (t : Fin cfg0.N) (h : Fin 64)
    (f0 : win0_2.index t (0 : Fin 2) = 0) (f1 : win0_2.index t (1 : Fin 2) = 0) :
    iblk m c 2 t (ix2 h 0) = m ((c : Thread nD τ).loc main_arg2) (ix1 h) := by
  show V m c main_v4 (((cfg0.win 2).blk t).view.emb (ix2 h 0)) = _
  have e : ((cfg0.win 2).blk t).view.emb (ix2 h 0) = ix2 h 0 := by
    funext a; apply Fin.ext
    match a with
    | ⟨0, _⟩ => show win0_2.index t (0 : Fin 2) * 64 + 1 * h.val = h.val; omega
    | ⟨1, _⟩ => show win0_2.index t (1 : Fin 2) * 1 + 1 * 0 = 0; omega
  rw [e]
  exact V_v4_apply m c h

theorem blk3_apply (c : Dev nD) (t : Fin cfg0.N) (o : Fin 8) (h : Fin 64)
    (f0 : win0_3.index t (0 : Fin 2) = 0) (f1 : win0_3.index t (1 : Fin 2) = 0) :
    iblk m c 3 t (ix2 o h) = m ((c : Thread nD τ).loc main_arg3) (ix2 h o) := by
  show V m c main_v3 (((cfg0.win 3).blk t).view.emb (ix2 o h)) = _
  have e : ((cfg0.win 3).blk t).view.emb (ix2 o h) = ix2 o h := by
    funext a; apply Fin.ext
    match a with
    | ⟨0, _⟩ => show win0_3.index t (0 : Fin 2) * 8 + 1 * o.val = o.val; omega
    | ⟨1, _⟩ => show win0_3.index t (1 : Fin 2) * 64 + 1 * h.val = h.val; omega
  rw [e]
  exact V_v3_apply m c o h

theorem blk4_apply (c : Dev nD) (t : Fin cfg0.N) (o : Fin 8)
    (f0 : win0_4.index t (0 : Fin 2) = 0) (f1 : win0_4.index t (1 : Fin 2) = 0) :
    iblk m c 4 t (ix2 o 0) = m ((c : Thread nD τ).loc main_arg4) (ix1 o) := by
  show V m c main_v5 (((cfg0.win 4).blk t).view.emb (ix2 o 0)) = _
  have e : ((cfg0.win 4).blk t).view.emb (ix2 o 0) = ix2 o 0 := by
    funext a; apply Fin.ext
    match a with
    | ⟨0, _⟩ => show win0_4.index t (0 : Fin 2) * 8 + 1 * o.val = o.val; omega
    | ⟨1, _⟩ => show win0_4.index t (1 : Fin 2) * 1 + 1 * 0 = 0; omega
  rw [e]
  exact V_v5_apply m c o

/-! ## What a grid point writes back, the cover, and the array after the region -/

theorem flushed_eq (c : Dev nD) (t : Fin cfg0.N) :
    (dats m 0 c).flushed 5 t = ((cfg0.win 5).blk t).view.read (Elt Ideal)
      (flat (m ((c : Thread nD τ).loc main_arg0)) (m ((c : Thread nD τ).loc main_arg1)) (m ((c : Thread nD τ).loc main_arg2))
        (m ((c : Thread nD τ).loc main_arg3)) (m ((c : Thread nD τ).loc main_arg4))) := by
  show (cfg0.win 5).cut (grid0.coords t) ((dats m 0 c).after 5 t) = _
  rw [after0_5]
  unfold out0_5
  rw [View.canon_unit_zero hz3]
  simp only [View.ld_unit_zero (S := S1x4x16384) hz3, View.ld_unit_zero (S := S64x12) hz2, View.ld_unit_zero (S := S64x1) hz2,
    View.ld_unit_zero (S := S8x64) hz2, View.ld_unit_zero (S := S8x1) hz2]
  obtain ⟨e0, e1, e2, e3, e4, e5, f10, f11, f20, f21, f30, f31, f40, f41⟩ := idx_facts t
  refine funext fun (j : S1x8x16384.Idx) => ?_
  obtain ⟨o, l, rfl⟩ : ∃ (o : Fin 8) (l : Fin 16384), j = ix3 0 o l := ⟨j 1, j 2, by
    have h0 : j 0 = (0 : Fin 1) := Fin.ext (by have h : (j 0).val < 1 := (j 0).isLt; show (j 0).val = 0; omega)
    conv_lhs => rw [eq_ix3 j]
    rw [h0]
    rfl⟩
  show k0_pay1 (F := Ideal) (k0_pay2 (iblk m c 0 t)) (k0_pay3 (iblk m c 1 t)) (iblk m c 2 t) (iblk m c 3 t) (iblk m c 4 t) (ix3 0 o l)
    = flat _ _ _ _ _ (((cfg0.win 5).blk t).view.emb (ix3 0 o l))
  refine (point_eq (iblk m c 0 t) (iblk m c 1 t) (iblk m c 2 t) (iblk m c 3 t) (iblk m c 4 t) _ _ _ _ _
    ⟨win0_5.index t (0 : Fin 3), by omega⟩ ⟨win0_5.index t (2 : Fin 3), by omega⟩
    (fun ch l => blk0_apply m c t ch l _ _ e0 e1 e2) (fun h k => blk1_apply m c t h k f10 f11)
    (fun h => blk2_apply m c t h f20 f21) (fun o h => blk3_apply m c t o h f30 f31) (fun o => blk4_apply m c t o f40 f41) o l).trans ?_
  refine congrArg _ (funext fun a => Fin.ext ?_)
  match a with
  | ⟨0, _⟩ => show win0_5.index t (0 : Fin 3) = win0_5.index t (0 : Fin 3) * 1 + 1 * 0; omega
  | ⟨1, _⟩ => show o.val = win0_5.index t (1 : Fin 3) * 8 + 1 * o.val; omega
  | ⟨2, _⟩ => show win0_5.index t (2 : Fin 3) * 16384 + l.val = win0_5.index t (2 : Fin 3) * 16384 + 1 * l.val; omega

theorem mem_blk (t : Fin cfg0.N) (i : S16x8x65536.Idx) :
    i ∈ ((cfg0.win 5).blk t).view.set ↔ ∀ a : Fin 3, win0_5.index t a * S1x8x16384.size a ≤ (i a).val
      ∧ (i a).val < win0_5.index t a * S1x8x16384.size a + S1x8x16384.size a := by
  show i ∈ ((View.whole main_v6).slice (win0_5.rect t)).set ↔ _
  rw [View.set_slice_whole, Rect.mem_set_unit]
  exact Iff.rfl

/-- Entry (b, o, p) is written by the point of image b and lane tile p / 16384. -/
theorem cover (i : S16x8x65536.Idx) :
    ∃ t : Fin cfg0.N, (cfg0.win 5).flush t = true ∧ i ∈ ((cfg0.win 5).blk t).view.set := by
  have hi0 : (i 0).val < 16 := (i 0).isLt
  have hi1 : (i 1).val < 8 := (i 1).isLt
  have hi2 : (i 2).val < 65536 := (i 2).isLt
  obtain ⟨t, ht⟩ := idx_onto ⟨(i 0).val, hi0⟩ ⟨(i 2).val / 16384, by omega⟩
  have q0 : win0_5.index t (0 : Fin 3) = (i 0).val := congrFun ht 0
  have q1 : win0_5.index t (1 : Fin 3) = 0 := congrFun ht 1
  have q2 : win0_5.index t (2 : Fin 3) = (i 2).val / 16384 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 8 ≤ (i 1).val ∧ (i 1).val < win0_5.index t (1 : Fin 3) * 8 + 8; omega
  | ⟨2, _⟩ => show win0_5.index t (2 : Fin 3) * 16384 ≤ (i 2).val ∧ (i 2).val < win0_5.index t (2 : Fin 3) * 16384 + 16384; omega

theorem final (c : Dev nD) : (dats m 0 c).arrAt 5 cfg0.N
    = flat (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 5 _ (fun t _ => flushed_eq m c t) cover

/-! ## The reshape after the region, and the run -/

theorem tail_eq (c : Dev nD) : Pipeline.afterTail₀ cfgs (dats m) 0 (V0 m) [hostOps1] c main_v7
    = Cert.Mlp.result (m ((c : Thread nD τ).loc main_arg0)) (m ((c : Thread nD τ).loc main_arg1)) (m ((c : Thread nD τ).loc main_arg2))
        (m ((c : Thread nD τ).loc main_arg3)) (m ((c : Thread nD τ).loc main_arg4)) := by
  unfold Pipeline.afterTail₀
  show StableHlo.after hostOps1 _ (Proc.devRef .tc main_v7) = _
  after_results
  have hA : Pipeline.withArrays (cfgs 0).spec c (V0 m c) (fun w => (dats m 0 c).arrAt w (cfgs 0).N) (Proc.devRef .tc main_v6)
      = flat (m ((c : Thread nD τ).loc main_arg0)) (m ((c : Thread nD τ).loc main_arg1)) (m ((c : Thread nD τ).loc main_arg2))
          (m ((c : Thread nD τ).loc main_arg3)) (m ((c : Thread nD τ).loc main_arg4)) :=
    (Pipeline.withArrays_arr spec0 launch0.win.arr_inj c _ _ 5).trans (final m c)
  funext j
  show shapeCast S16x8x256x256 (Pipeline.withArrays (cfgs 0).spec c (V0 m c) (fun w => (dats m 0 c).arrAt w (cfgs 0).N)
    (Proc.devRef .tc main_v6)) Facts₀.shapeCasts_S16x8x65536_S16x8x256x256 j = _
  rw [hA]
  obtain ⟨b, o, n, mm, rfl⟩ : ∃ (b : Fin 16) (o : Fin 8) (n mm : Fin 256), j = ix4 b o n mm := ⟨j 0, j 1, j 2, j 3, eq_ix4 j⟩
  refine (shapeCast_apply _ _ (ix4 b o n mm) (ix3 b o ⟨n.val * 256 + mm.val, by omega⟩) (by
    rw [Shape.rowMajor_val_three, Shape.rowMajor_val_four]
    show (b.val * 8 + o.val) * 65536 + (n.val * 256 + mm.val) = ((b.val * 8 + o.val) * 256 + n.val) * 256 + mm.val
    omega)).trans ?_
  have e1 : ∀ (h : (n.val * 256 + mm.val) / 256 < 256), (⟨(n.val * 256 + mm.val) / 256, h⟩ : Fin 256) = n :=
    fun h => Fin.ext (by show (n.val * 256 + mm.val) / 256 = n.val; omega)
  have e2 : ∀ (h : (n.val * 256 + mm.val) % 256 < 256), (⟨(n.val * 256 + mm.val) % 256, h⟩ : Fin 256) = mm :=
    fun h => Fin.ext (by show (n.val * 256 + mm.val) % 256 = mm.val; omega)
  show Cert.Mlp.mlp (Cert.Mlp.pix _ b ⟨(n.val * 256 + mm.val) / 256, _⟩ ⟨(n.val * 256 + mm.val) % 256, _⟩) _ _ _ _ o
    = Cert.Mlp.mlp (Cert.Mlp.pix _ b n mm) _ _ _ _ o
  rw [e1, e2]

/-- The kernel's run, read: every weakly fair execution ends with the result array at the specification of the
    argument arrays, the arguments unchanged. -/
theorem run : θ_run defs (onTc (τ := τ) (main (F := Ideal))) ⟨m, fun _ => 0, ρ⟩ fun r => ∀ c : Dev nD,
      r.2.mem ((c.tc : Thread nD τ).loc main_v7)
        = Cert.Mlp.result (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).2 main_v7 (Pipeline.mem_restRefs_of main_v7 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.Mlp.Kernel

end
-- ==== Proof.RefResult.lean ====
/-
  The reference's composed term, read at an index, is the specification: entry (b, o, n, m) of its result is
  output o of the perceptron at pixel (b, n, m).
-/
import proofs.«417203_j38646115729916_3_alg».proof.Proof.Gen.ReferenceIdeal.Read
import proofs.«417203_j38646115729916_3_alg».proof.Proof.Spec
import Idealize.ShloMosaic.Lib.Pipeline.Value
import Idealize.ShloMosaic.Lib.ValueIdx
import Idealize.ShloMosaic.Lib.IdealHost
import Idealize.ShloMosaic.PureOps.Ideal.Laws

noncomputable section

namespace Cert.Mlp.Ref

open Idealize.ShloMosaic Idealize.ShloMosaic.ValueIdx Cert.ReferenceIdeal Cert.ReferenceIdeal.Read

section Features

variable (x0 : (⟨S16x256x256x4, .f32⟩ : BufTy).Contents (Elt Ideal)) (b : Fin 16) (n m : Fin 256)

/-- Flattening (b, n, m) row-major over [16, 256, 256] and splitting the flat position again over [16, 256, 256, 1]
    returns (b, n, m, 0); then channel c of the input is read. -/
theorem rx_at : val_main_v1 (F := Ideal) x0 (ix3 b n m) = x0 (ix4 b n m 0) := by
  rw [val_main_v1_apply, val_main_v0_apply]
  refine congrArg x0 (funext fun a => Fin.ext ?_)
  have hb := b.isLt; have hn := n.isLt; have hm := m.isLt
  match a with
  | ⟨0, _⟩ => show ((b.val * 256 + n.val) * 256 + m.val) / 65536 = b.val; omega
  | ⟨1, _⟩ => show ((b.val * 256 + n.val) * 256 + m.val) / 256 % 256 = n.val; omega
  | ⟨2, _⟩ => show ((b.val * 256 + n.val) * 256 + m.val) / 1 % 256 = m.val; omega
  | ⟨3, _⟩ => rfl

theorem ry_at : val_main_v3 (F := Ideal) x0 (ix3 b n m) = x0 (ix4 b n m 1) := by
  rw [val_main_v3_apply, val_main_v2_apply]
  refine congrArg x0 (funext fun a => Fin.ext ?_)
  have hb := b.isLt; have hn := n.isLt; have hm := m.isLt
  match a with
  | ⟨0, _⟩ => show ((b.val * 256 + n.val) * 256 + m.val) / 65536 = b.val; omega
  | ⟨1, _⟩ => show ((b.val * 256 + n.val) * 256 + m.val) / 256 % 256 = n.val; omega
  | ⟨2, _⟩ => show ((b.val * 256 + n.val) * 256 + m.val) / 1 % 256 = m.val; omega
  | ⟨3, _⟩ => rfl

theorem vx_at : val_main_v5 (F := Ideal) x0 (ix3 b n m) = x0 (ix4 b n m 2) := by
  rw [val_main_v5_apply, val_main_v4_apply]
  refine congrArg x0 (funext fun a => Fin.ext ?_)
  have hb := b.isLt; have hn := n.isLt; have hm := m.isLt
  match a with
  | ⟨0, _⟩ => show ((b.val * 256 + n.val) * 256 + m.val) / 65536 = b.val; omega
  | ⟨1, _⟩ => show ((b.val * 256 + n.val) * 256 + m.val) / 256 % 256 = n.val; omega
  | ⟨2, _⟩ => show ((b.val * 256 + n.val) * 256 + m.val) / 1 % 256 = m.val; omega
  | ⟨3, _⟩ => rfl

theorem vy_at : val_main_v7 (F := Ideal) x0 (ix3 b n m) = x0 (ix4 b n m 3) := by
  rw [val_main_v7_apply, val_main_v6_apply]
  refine congrArg x0 (funext fun a => Fin.ext ?_)
  have hb := b.isLt; have hn := n.isLt; have hm := m.isLt
  match a with
  | ⟨0, _⟩ => show ((b.val * 256 + n.val) * 256 + m.val) / 65536 = b.val; omega
  | ⟨1, _⟩ => show ((b.val * 256 + n.val) * 256 + m.val) / 256 % 256 = n.val; omega
  | ⟨2, _⟩ => show ((b.val * 256 + n.val) * 256 + m.val) / 1 % 256 = m.val; omega
  | ⟨3, _⟩ => rfl

/-- The distance. -/
theorem dist_at : val_main_v13 (F := Ideal) x0 (ix3 b n m) = dist (x0 (ix4 b n m 0)) (x0 (ix4 b n m 1)) := by
  rw [val_main_v13_apply, val_main_v12_apply, val_main_v10_apply, val_main_v8_apply, val_main_v9_apply,
    val_main_v11_apply, val_main_cst_apply, rx_at, ry_at]
  rfl

/-- The reciprocal of the distance plus a tenth. -/
theorem inv_at : val_main_v17 (F := Ideal) x0 (ix3 b n m)
    = Ideal.div 1 (dist (x0 (ix4 b n m 0)) (x0 (ix4 b n m 1)) + tenth) := by
  rw [val_main_v17_apply, val_main_v16_apply, val_main_cst_1_apply, val_main_v15_apply, val_main_v14_apply,
    val_main_cst_0_apply, dist_at]
  simp only [Ideal.hostDivf_def, Ideal.addf_def, Ideal.ofBits_def, Ideal.ofBits_one_f32]
  rfl

end Features

section Features2

variable (x0 : (⟨S16x256x256x4, .f32⟩ : BufTy).Contents (Elt Ideal)) (b : Fin 16) (n m : Fin 256)

/-- The first direction component: position over distance plus eps. -/
theorem dirx_at : val_main_v20 (F := Ideal) x0 (ix3 b n m)
    = Ideal.div (x0 (ix4 b n m 0)) (dist (x0 (ix4 b n m 0)) (x0 (ix4 b n m 1)) + eps) := by
  rw [val_main_v20_apply, val_main_v19_apply, val_main_v18_apply, val_main_cst_2_apply, dist_at, rx_at]
  rfl

/-- The second direction component. -/
theorem diry_at : val_main_v23 (F := Ideal) x0 (ix3 b n m)
    = Ideal.div (x0 (ix4 b n m 1)) (dist (x0 (ix4 b n m 0)) (x0 (ix4 b n m 1)) + eps) := by
  rw [val_main_v23_apply, val_main_v22_apply, val_main_v21_apply, val_main_cst_3_apply, dist_at, ry_at]
  rfl

/-- The squared speed. -/
theorem speedSq_at : val_main_v26 (F := Ideal) x0 (ix3 b n m) = speedSq (x0 (ix4 b n m 2)) (x0 (ix4 b n m 3)) := by
  rw [val_main_v26_apply, val_main_v24_apply, val_main_v25_apply, vx_at, vy_at]
  rfl

/-- The speed. -/
theorem speed_at : val_main_v29 (F := Ideal) x0 (ix3 b n m)
    = Ideal.sqrt (speedSq (x0 (ix4 b n m 2)) (x0 (ix4 b n m 3)) + eps) := by
  rw [val_main_v29_apply, val_main_v28_apply, val_main_v27_apply, val_main_cst_4_apply, speedSq_at]
  rfl

/-- The inner product of velocity and position. -/
theorem dotvp_at : val_main_v32 (F := Ideal) x0 (ix3 b n m)
    = dotvp (x0 (ix4 b n m 0)) (x0 (ix4 b n m 1)) (x0 (ix4 b n m 2)) (x0 (ix4 b n m 3)) := by
  rw [val_main_v32_apply, val_main_v30_apply, val_main_v31_apply, rx_at, ry_at, vx_at, vy_at]
  rfl

/-- The closing speed. -/
theorem closing_at : val_main_v35 (F := Ideal) x0 (ix3 b n m)
    = Ideal.div (dotvp (x0 (ix4 b n m 0)) (x0 (ix4 b n m 1)) (x0 (ix4 b n m 2)) (x0 (ix4 b n m 3)))
        (dist (x0 (ix4 b n m 0)) (x0 (ix4 b n m 1)) + eps) := by
  rw [val_main_v35_apply, val_main_v34_apply, val_main_v33_apply, val_main_cst_5_apply, dist_at, dotvp_at]
  rfl

/-- The squashed ratio of minus the inner product to the squared speed plus eps. -/
theorem tanh_at : val_main_v40 (F := Ideal) x0 (ix3 b n m)
    = Ideal.tanh (Ideal.div (-(dotvp (x0 (ix4 b n m 0)) (x0 (ix4 b n m 1)) (x0 (ix4 b n m 2)) (x0 (ix4 b n m 3))))
        (speedSq (x0 (ix4 b n m 2)) (x0 (ix4 b n m 3)) + eps)) := by
  rw [val_main_v40_apply, val_main_v39_apply, val_main_v36_apply, val_main_v38_apply, val_main_v37_apply,
    val_main_cst_6_apply, speedSq_at, dotvp_at]
  rfl

/-- An index of [16, 256, 256] is known by its three coordinates. -/
theorem eq_ix3_of (i : S16x256x256.Idx) (h0 : (i 0).val = b.val) (h1 : (i 1).val = n.val) (h2 : (i 2).val = m.val) :
    i = ix3 b n m :=
  funext fun a => Fin.ext (by
    match a with
    | ⟨0, _⟩ => exact h0
    | ⟨1, _⟩ => exact h1
    | ⟨2, _⟩ => exact h2)

/-- Off the joined axis a piece's index (b, n, m, 0) has the coordinates of (b, n, m, k). -/
theorem off_axis (k : Fin 12) (c : Fin S16x256x256x1.rank) (hc : c.cast (rfl : S16x256x256x1.rank = S16x256x256x12.rank) ≠ 3) :
    ((ix4 b n m (0 : Fin 1) : S16x256x256x1.Idx) c).val
      = ((ix4 b n m k : S16x256x256x12.Idx) (c.cast (rfl : S16x256x256x1.rank = S16x256x256x12.rank))).val := by
  match c with
  | ⟨0, _⟩ => rfl
  | ⟨1, _⟩ => rfl
  | ⟨2, _⟩ => rfl
  | ⟨3, _⟩ => exact absurd rfl hc

/-- A join of pieces along the last axis, read at (b, n, m, k), when piece k has unit width there and the k pieces
    before it have total width k: it is piece k at (b, n, m, 0). -/
theorem join_at {α : Type} (xs : List ((s : Shape) × (s.Idx → α)))
    (h : Shape.Concatenates (xs.map (·.1)) S16x256x256x12 3) (k : Fin 12) (hk : k.val < xs.length)
    (y : S16x256x256x1.Idx → α) (hxk : xs[k.val] = ⟨S16x256x256x1, y⟩)
    (hpre : (((xs.take k.val).map (·.1)).map fun s =>
      if h : s.rank = S16x256x256x12.rank then s.size ((3 : Fin S16x256x256x12.rank).cast h.symm) else 0).sum = k.val) :
    concatenate S16x256x256x12 3 xs h (ix4 b n m k) = y (ix4 b n m (0 : Fin 1)) :=
  concatenate_apply_piece 3 xs h (ix4 b n m k) k.val hk S16x256x256x1 y hxk rfl k.val hpre (ix4 b n m (0 : Fin 1))
    (off_axis b n m k) rfl

/-- The first position coordinate is piece 0 of the join. -/
theorem piece0 : val_main_v53 (F := Ideal) x0 (ix4 b n m (⟨0, by decide⟩ : Fin 12))
    = x0 (ix4 b n m 0) := by
  unfold val_main_v53
  refine Eq.trans (join_at b n m _ _ (⟨0, by decide⟩ : Fin 12) ?_ (val_main_v41 (F := Ideal) x0) ?_ ?_) ?_
  · exact (by decide : (0 : Nat) < 12)
  · rfl
  · rfl
  · rw [val_main_v41_apply, eq_ix3_of b n m (idx_main_v41 (ix4 b n m (0 : Fin 1))) rfl rfl rfl, rx_at]

/-- The second position coordinate is piece 1 of the join. -/
theorem piece1 : val_main_v53 (F := Ideal) x0 (ix4 b n m (⟨1, by decide⟩ : Fin 12))
    = x0 (ix4 b n m 1) := by
  unfold val_main_v53
  refine Eq.trans (join_at b n m _ _ (⟨1, by decide⟩ : Fin 12) ?_ (val_main_v42 (F := Ideal) x0) ?_ ?_) ?_
  · exact (by decide : (1 : Nat) < 12)
  · rfl
  · rfl
  · rw [val_main_v42_apply, eq_ix3_of b n m (idx_main_v42 (ix4 b n m (0 : Fin 1))) rfl rfl rfl, ry_at]

/-- The first velocity coordinate is piece 2 of the join. -/
theorem piece2 : val_main_v53 (F := Ideal) x0 (ix4 b n m (⟨2, by decide⟩ : Fin 12))
    = x0 (ix4 b n m 2) := by
  unfold val_main_v53
  refine Eq.trans (join_at b n m _ _ (⟨2, by decide⟩ : Fin 12) ?_ (val_main_v43 (F := Ideal) x0) ?_ ?_) ?_
  · exact (by decide : (2 : Nat) < 12)
  · rfl
  · rfl
  · rw [val_main_v43_apply, eq_ix3_of b n m (idx_main_v43 (ix4 b n m (0 : Fin 1))) rfl rfl rfl, vx_at]

/-- The second velocity coordinate is piece 3 of the join. -/
theorem piece3 : val_main_v53 (F := Ideal) x0 (ix4 b n m (⟨3, by decide⟩ : Fin 12))
    = x0 (ix4 b n m 3) := by
  unfold val_main_v53
  refine Eq.trans (join_at b n m _ _ (⟨3, by decide⟩ : Fin 12) ?_ (val_main_v44 (F := Ideal) x0) ?_ ?_) ?_
  · exact (by decide : (3 : Nat) < 12)
  · rfl
  · rfl
  · rw [val_main_v44_apply, eq_ix3_of b n m (idx_main_v44 (ix4 b n m (0 : Fin 1))) rfl rfl rfl, vy_at]

/-- The distance is piece 4 of the join. -/
theorem piece4 : val_main_v53 (F := Ideal) x0 (ix4 b n m (⟨4, by decide⟩ : Fin 12))
    = dist (x0 (ix4 b n m 0)) (x0 (ix4 b n m 1)) := by
  unfold val_main_v53
  refine Eq.trans (join_at b n m _ _ (⟨4, by decide⟩ : Fin 12) ?_ (val_main_v45 (F := Ideal) x0) ?_ ?_) ?_
  · exact (by decide : (4 : Nat) < 12)
  · rfl
  · rfl
  · rw [val_main_v45_apply, eq_ix3_of b n m (idx_main_v45 (ix4 b n m (0 : Fin 1))) rfl rfl rfl, dist_at]

/-- The reciprocal of the distance plus a tenth is piece 5 of the join. -/
theorem piece5 : val_main_v53 (F := Ideal) x0 (ix4 b n m (⟨5, by decide⟩ : Fin 12))
    = Ideal.div 1 (dist (x0 (ix4 b n m 0)) (x0 (ix4 b n m 1)) + tenth) := by
  unfold val_main_v53
  refine Eq.trans (join_at b n m _ _ (⟨5, by decide⟩ : Fin 12) ?_ (val_main_v46 (F := Ideal) x0) ?_ ?_) ?_
  · exact (by decide : (5 : Nat) < 12)
  · rfl
  · rfl
  · rw [val_main_v46_apply, eq_ix3_of b n m (idx_main_v46 (ix4 b n m (0 : Fin 1))) rfl rfl rfl, inv_at]

/-- The speed is piece 6 of the join. -/
theorem piece6 : val_main_v53 (F := Ideal) x0 (ix4 b n m (⟨6, by decide⟩ : Fin 12))
    = Ideal.sqrt (speedSq (x0 (ix4 b n m 2)) (x0 (ix4 b n m 3)) + eps) := by
  unfold val_main_v53
  refine Eq.trans (join_at b n m _ _ (⟨6, by decide⟩ : Fin 12) ?_ (val_main_v47 (F := Ideal) x0) ?_ ?_) ?_
  · exact (by decide : (6 : Nat) < 12)
  · rfl
  · rfl
  · rw [val_main_v47_apply, eq_ix3_of b n m (idx_main_v47 (ix4 b n m (0 : Fin 1))) rfl rfl rfl, speed_at]

/-- The closing speed is piece 7 of the join. -/
theorem piece7 : val_main_v53 (F := Ideal) x0 (ix4 b n m (⟨7, by decide⟩ : Fin 12))
    = Ideal.div (dotvp (x0 (ix4 b n m 0)) (x0 (ix4 b n m 1)) (x0 (ix4 b n m 2)) (x0 (ix4 b n m 3)))
        (dist (x0 (ix4 b n m 0)) (x0 (ix4 b n m 1)) + eps) := by
  unfold val_main_v53
  refine Eq.trans (join_at b n m _ _ (⟨7, by decide⟩ : Fin 12) ?_ (val_main_v48 (F := Ideal) x0) ?_ ?_) ?_
  · exact (by decide : (7 : Nat) < 12)
  · rfl
  · rfl
  · rw [val_main_v48_apply, eq_ix3_of b n m (idx_main_v48 (ix4 b n m (0 : Fin 1))) rfl rfl rfl, closing_at]

/-- The first direction component is piece 8 of the join. -/
theorem piece8 : val_main_v53 (F := Ideal) x0 (ix4 b n m (⟨8, by decide⟩ : Fin 12))
    = Ideal.div (x0 (ix4 b n m 0)) (dist (x0 (ix4 b n m 0)) (x0 (ix4 b n m 1)) + eps) := by
  unfold val_main_v53
  refine Eq.trans (join_at b n m _ _ (⟨8, by decide⟩ : Fin 12) ?_ (val_main_v49 (F := Ideal) x0) ?_ ?_) ?_
  · exact (by decide : (8 : Nat) < 12)
  · rfl
  · rfl
  · rw [val_main_v49_apply, eq_ix3_of b n m (idx_main_v49 (ix4 b n m (0 : Fin 1))) rfl rfl rfl, dirx_at]

/-- The second direction component is piece 9 of the join. -/
theorem piece9 : val_main_v53 (F := Ideal) x0 (ix4 b n m (⟨9, by decide⟩ : Fin 12))
    = Ideal.div (x0 (ix4 b n m 1)) (dist (x0 (ix4 b n m 0)) (x0 (ix4 b n m 1)) + eps) := by
  unfold val_main_v53
  refine Eq.trans (join_at b n m _ _ (⟨9, by decide⟩ : Fin 12) ?_ (val_main_v50 (F := Ideal) x0) ?_ ?_) ?_
  · exact (by decide : (9 : Nat) < 12)
  · rfl
  · rfl
  · rw [val_main_v50_apply, eq_ix3_of b n m (idx_main_v50 (ix4 b n m (0 : Fin 1))) rfl rfl rfl, diry_at]

/-- The squashed ratio is piece 10 of the join. -/
theorem piece10 : val_main_v53 (F := Ideal) x0 (ix4 b n m (⟨10, by decide⟩ : Fin 12))
    = Ideal.tanh (Ideal.div (-(dotvp (x0 (ix4 b n m 0)) (x0 (ix4 b n m 1)) (x0 (ix4 b n m 2)) (x0 (ix4 b n m 3))))
        (speedSq (x0 (ix4 b n m 2)) (x0 (ix4 b n m 3)) + eps)) := by
  unfold val_main_v53
  refine Eq.trans (join_at b n m _ _ (⟨10, by decide⟩ : Fin 12) ?_ (val_main_v51 (F := Ideal) x0) ?_ ?_) ?_
  · exact (by decide : (10 : Nat) < 12)
  · rfl
  · rfl
  · rw [val_main_v51_apply, eq_ix3_of b n m (idx_main_v51 (ix4 b n m (0 : Fin 1))) rfl rfl rfl, tanh_at]

/-- The inner product is piece 11 of the join. -/
theorem piece11 : val_main_v53 (F := Ideal) x0 (ix4 b n m (⟨11, by decide⟩ : Fin 12))
    = dotvp (x0 (ix4 b n m 0)) (x0 (ix4 b n m 1)) (x0 (ix4 b n m 2)) (x0 (ix4 b n m 3)) := by
  unfold val_main_v53
  refine Eq.trans (join_at b n m _ _ (⟨11, by decide⟩ : Fin 12) ?_ (val_main_v52 (F := Ideal) x0) ?_ ?_) ?_
  · exact (by decide : (11 : Nat) < 12)
  · rfl
  · rfl
  · rw [val_main_v52_apply, eq_ix3_of b n m (idx_main_v52 (ix4 b n m (0 : Fin 1))) rfl rfl rfl, dotvp_at]

/-- The joined array at (b, n, m, k) is feature k of pixel (b, n, m). -/
theorem feat_at (k : Fin 12) : val_main_v53 (F := Ideal) x0 (ix4 b n m k) = pix x0 b n m k := by
  match k with
  | ⟨0, _⟩ => exact piece0 x0 b n m
  | ⟨1, _⟩ => exact piece1 x0 b n m
  | ⟨2, _⟩ => exact piece2 x0 b n m
  | ⟨3, _⟩ => exact piece3 x0 b n m
  | ⟨4, _⟩ => exact piece4 x0 b n m
  | ⟨5, _⟩ => exact piece5 x0 b n m
  | ⟨6, _⟩ => exact piece6 x0 b n m
  | ⟨7, _⟩ => exact piece7 x0 b n m
  | ⟨8, _⟩ => exact piece8 x0 b n m
  | ⟨9, _⟩ => exact piece9 x0 b n m
  | ⟨10, _⟩ => exact piece10 x0 b n m
  | ⟨11, _⟩ => exact piece11 x0 b n m

end Features2

section Outer

variable (x0 : (⟨S16x256x256x4, .f32⟩ : BufTy).Contents (Elt Ideal)) (x1 : (⟨S12x64, .f32⟩ : BufTy).Contents (Elt Ideal))
  (x2 : (⟨S64, .f32⟩ : BufTy).Contents (Elt Ideal)) (b : Fin 16) (n m : Fin 256)

/-- The argument of the activation at hidden unit h: the features against column h of the first weights, plus the bias. -/
theorem preact_at (h : Fin 64) : val_main_v57 (F := Ideal) x0 x1 x2 (ix4 b n m h)
    = (∑ k : Fin 12, pix x0 b n m k * x1 (ix2 k h)) + x2 (ix1 h) := by
  have e1 : ∀ k : Fin 12, lidx_main_v54 (ix4 b n m h) k = ix4 b n m k := fun k => funext fun a => by
    match a with
    | ⟨0, _⟩ => rfl
    | ⟨1, _⟩ => rfl
    | ⟨2, _⟩ => rfl
    | ⟨3, _⟩ => rfl
  have e2 : ∀ k : Fin 12, ridx_main_v54 (ix4 b n m h) k = ix2 k h := fun k => funext fun a => by
    match a with
    | ⟨0, _⟩ => rfl
    | ⟨1, _⟩ => rfl
  have e3 : idx_main_v55 (idx_main_v56 (ix4 b n m h)) = ix1 h := funext fun a => by
    match a with
    | ⟨0, _⟩ => rfl
  rw [val_main_v57_apply, val_main_v54_apply, val_main_v56_apply, val_main_v55_apply, e3, Ideal.addf_def]
  refine congrArg₂ (· + ·) (Finset.sum_congr rfl fun k _ => ?_) rfl
  rw [e1, e2, feat_at]

/-- Hidden unit h: the argument times one over one plus the exponential of its negative. -/
theorem hidden_at (h : Fin 64) : val_main_v58 (F := Ideal) x0 x1 x2 (ix4 b n m h)
    = hidden (pix x0 b n m) (fun k h => x1 (ix2 k h)) (fun h => x2 (ix1 h)) h := by
  rw [val_main_v58_apply, val_main_call0_v5_apply, val_main_call0_v4_apply, val_main_call0_cst_0_apply,
    val_main_call0_v3_apply, val_main_call0_v2_apply, val_main_call0_cst_apply, val_main_call0_v1_apply,
    val_main_call0_v0_apply, preact_at]
  simp only [Ideal.mulf_def, Ideal.hostDivf_def, Ideal.addf_def, Ideal.hostUnary_exp_def, Ideal.hostNegf_def,
    Ideal.negf_def, Ideal.ofBits_def, Ideal.ofBits_one_f32]
  rfl

end Outer

theorem reference_eq (x0 : (⟨S16x256x256x4, .f32⟩ : BufTy).Contents (Elt Ideal)) (x1 : (⟨S12x64, .f32⟩ : BufTy).Contents (Elt Ideal))
    (x2 : (⟨S64, .f32⟩ : BufTy).Contents (Elt Ideal)) (x3 : (⟨S64x8, .f32⟩ : BufTy).Contents (Elt Ideal))
    (x4 : (⟨S8, .f32⟩ : BufTy).Contents (Elt Ideal)) :
    val_main_v63 (F := Ideal) x0 x1 x2 x3 x4 = Cert.Mlp.result x0 x1 x2 x3 x4 := by
  funext j
  obtain ⟨b, o, n, m, rfl⟩ : ∃ (b : Fin 16) (o : Fin 8) (n m : Fin 256), j = ix4 b o n m :=
    ⟨j 0, j 1, j 2, j 3, eq_ix4 j⟩
  have e0 : idx_main_v63 (ix4 b o n m) = ix4 b n m o := funext fun a => by
    match a with
    | ⟨0, _⟩ => rfl
    | ⟨1, _⟩ => rfl
    | ⟨2, _⟩ => rfl
    | ⟨3, _⟩ => rfl
  have e1 : ∀ k : Fin 64, lidx_main_v59 (ix4 b n m o) k = ix4 b n m k := fun k => funext fun a => by
    match a with
    | ⟨0, _⟩ => rfl
    | ⟨1, _⟩ => rfl
    | ⟨2, _⟩ => rfl
    | ⟨3, _⟩ => rfl
  have e2 : ∀ k : Fin 64, ridx_main_v59 (ix4 b n m o) k = ix2 k o := fun k => funext fun a => by
    match a with
    | ⟨0, _⟩ => rfl
    | ⟨1, _⟩ => rfl
  have e3 : idx_main_v60 (idx_main_v61 (ix4 b n m o)) = ix1 o := funext fun a => by
    match a with
    | ⟨0, _⟩ => rfl
  rw [val_main_v63_apply, e0, val_main_v62_apply, val_main_v59_apply, val_main_v61_apply, val_main_v60_apply, e3,
    Ideal.addf_def]
  show _ = mlp (pix x0 b n m) (fun k h => x1 (ix2 k h)) (fun h => x2 (ix1 h)) (fun h o => x3 (ix2 h o))
    (fun o => x4 (ix1 o)) o
  unfold mlp
  refine congrArg₂ (· + ·) (Finset.sum_congr rfl fun k _ => ?_) rfl
  rw [e1, e2, hidden_at]

end Cert.Mlp.Ref

end
-- ==== Proof.lean ====
/-
  The certificate: the kernel and the reference compute the same array on the extended reals.

  Both programs form twelve features per pixel from its four numbers, pass them through a perceptron 12 -> 64 -> 8
  with activation z * logistic z, and lay the eight outputs out as [16, 8, 256, 256].  The kernel does it tile by
  tile on a channel-first copy with transposed weights, writes each quotient as a product with a reciprocal and
  the negation as a difference from zero; the reference does it on the whole arrays.  The two agree because each
  divisor (a sum of squares plus a positive constant, or its root plus that constant) is positive for every
  extended-real input, so x * (1 / d) = x / d there, and because a contraction's products commute.  Nothing is
  rewritten between the printed kernel and its idealization, so that conjunct is trivial; the three frames are the
  generated ones.
-/
import proofs.«417203_j38646115729916_3_alg».proof.Defs
import proofs.«417203_j38646115729916_3_alg».proof.Proof.Gen.Kernel
import proofs.«417203_j38646115729916_3_alg».proof.Proof.Gen.Kernel.Skeleton
import proofs.«417203_j38646115729916_3_alg».proof.Proof.Gen.Kernel.Launch
import proofs.«417203_j38646115729916_3_alg».proof.Proof.Gen.Kernel.Points
import proofs.«417203_j38646115729916_3_alg».proof.Proof.Gen.Kernel.Frame
import proofs.«417203_j38646115729916_3_alg».proof.Proof.Gen.KernelIdeal
import proofs.«417203_j38646115729916_3_alg».proof.Proof.Gen.KernelIdeal.Skeleton
import proofs.«417203_j38646115729916_3_alg».proof.Proof.Gen.KernelIdeal.Launch
import proofs.«417203_j38646115729916_3_alg».proof.Proof.Gen.KernelIdeal.Points
import proofs.«417203_j38646115729916_3_alg».proof.Proof.Gen.KernelIdeal.Frame
import proofs.«417203_j38646115729916_3_alg».proof.Proof.Gen.ReferenceIdeal
import proofs.«417203_j38646115729916_3_alg».proof.Proof.Gen.Pre_finite_inputs
import proofs.«417203_j38646115729916_3_alg».proof.Proof.Gen.ReferenceIdeal.Run
import proofs.«417203_j38646115729916_3_alg».proof.Proof.Gen.ReferenceIdeal.Read
import proofs.«417203_j38646115729916_3_alg».proof.Proof.Spec
import proofs.«417203_j38646115729916_3_alg».proof.Proof.KernelPoint
import proofs.«417203_j38646115729916_3_alg».proof.Proof.KernelValue
import proofs.«417203_j38646115729916_3_alg».proof.Proof.RefResult
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the specification of their (agreeing) arguments. -/
theorem algebraic : Cert.algebraic_KernelIdeal_ReferenceIdeal := by
  intro m ρ m' ρ' _ hagree
  refine ⟨_, Cert.Mlp.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v63_eq, Cert.Mlp.Ref.reference_eq, (hagree c).1, (hagree c).2.1, (hagree c).2.2.1,
    (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
